-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S4096x256 : Shape := ⟨2, ![4096, 256]⟩
abbrev S16384 : Shape := ⟨1, ![16384]⟩
abbrev S4096 : Shape := ⟨1, ![4096]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v8 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v8 main_v17
  main_v18

def fn {F : FTy → Type} [FloatOps F] (main_arg0 : FVec F S16384x256 .f32) (main_arg1 : FVec F S4096x256 .f32) (main_arg2 : IVec S16384 32) (main_arg3 : IVec S4096 32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_c_2 : IVec S_ 32 := constantI S_ 32 4294967196#32
  let main_v9 : IVec S4096 32 := broadcastInDim S4096 ![] bcast_S_S4096 main_c_2
  let main_v10 : IVec S4096 1 := cmpi .eq main_arg3 main_v9
  let main_c_3 : IVec S_ 32 := constantI S_ 32 0#32
  let main_v11 : IVec S4096 32 := broadcastInDim S4096 ![] bcast_S_S4096 main_c_3
  let main_v12 : IVec S4096 1 := cmpi .sge main_arg3 main_v11
  let main_c_4 : IVec S_ 32 := constantI S_ 32 1000#32
  let main_v13 : IVec S4096 32 := broadcastInDim S4096 ![] bcast_S_S4096 main_c_4
  let main_v14 : IVec S4096 1 := cmpi .slt main_arg3 main_v13
  let main_v15 : IVec S4096 1 := andi main_v12 main_v14
  let main_v16 : IVec S4096 1 := ori main_v10 main_v15
  fn_part1 (F := F) main_v8 main_v16
-- ==== Kernel.lean ====
abbrev S16384x256 : Shape := ⟨2, ![16384, 256]⟩
abbrev S4096x256 : Shape := ⟨2, ![4096, 256]⟩
abbrev S16384 : Shape := ⟨1, ![16384]⟩
abbrev S4096 : Shape := ⟨1, ![4096]⟩
abbrev S_ : Shape := ⟨0, ![]⟩
abbrev S4096x1 : Shape := ⟨2, ![4096, 1]⟩
abbrev S16384x1 : Shape := ⟨2, ![16384, 1]⟩
abbrev S1x16384 : Shape := ⟨2, ![1, 16384]⟩
abbrev S512x256 : Shape := ⟨2, ![512, 256]⟩
abbrev S1024x256 : Shape := ⟨2, ![1024, 256]⟩
abbrev S512x1 : Shape := ⟨2, ![512, 1]⟩
abbrev S1x1024 : Shape := ⟨2, ![1, 1024]⟩
abbrev S256x1024 : Shape := ⟨2, ![256, 1024]⟩
abbrev S512x1024 : Shape := ⟨2, ![512, 1024]⟩
abbrev S512 : Shape := ⟨1, ![512]⟩

abbrev nBuf : Space → Nat
  | .hbm => 44
  | .vmem => 16
  | .smem => 0
  | _ => 0

abbrev bufTy : (tb : Table) → Fin (tcTables nBuf tb) → BufTy
  | .hbm, ⟨0, _⟩ => ⟨S16384x256, .f32⟩
  | .hbm, ⟨1, _⟩ => ⟨S4096x256, .f32⟩
  | .hbm, ⟨2, _⟩ => ⟨S16384, .i32⟩
  | .hbm, ⟨3, _⟩ => ⟨S4096, .i32⟩
  | .hbm, ⟨4, _⟩ => ⟨S4096x256, .bf16⟩
  | .hbm, ⟨5, _⟩ => ⟨S16384x256, .bf16⟩
  | .hbm, ⟨6, _⟩ => ⟨S4096x256, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S16384x256, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S1x16384, .f32⟩
  | .hbm, ⟨15, _⟩ => ⟨S4096x1, .i32⟩
  | .hbm, ⟨16, _⟩ => ⟨S1x16384, .i32⟩
  | .hbm, ⟨17, _⟩ => ⟨S4096x1, .f32⟩
  | .hbm, ⟨18, _⟩ => ⟨S4096x1, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S_, .f32⟩
  | .hbm, ⟨37, _⟩ => ⟨S4096, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .f32⟩
  | .hbm, ⟨43, _⟩ => ⟨S_, .f32⟩
  | .local _ .vmem, ⟨0, _⟩ => ⟨S512x256, .bf16⟩
  | .local _ .vmem, ⟨1, _⟩ => ⟨S512x256, .bf16⟩
  | .local _ .vmem, ⟨2, _⟩ => ⟨S1024x256, .bf16⟩
  | .local _ .vmem, ⟨3, _⟩ => ⟨S1024x256, .bf16⟩
  | .local _ .vmem, ⟨4, _⟩ => ⟨S512x1, .f32⟩
  | .local _ .vmem, ⟨5, _⟩ => ⟨S512x1, .f32⟩
  | .local _ .vmem, ⟨6, _⟩ => ⟨S1x1024, .f32⟩
  | .local _ .vmem, ⟨7, _⟩ => ⟨S1x1024, .f32⟩
  | .local _ .vmem, ⟨8, _⟩ => ⟨S512x1, .i32⟩
  | .local _ .vmem, ⟨9, _⟩ => ⟨S512x1, .i32⟩
  | .local _ .vmem, ⟨10, _⟩ => ⟨S1x1024, .i32⟩
  | .local _ .vmem, ⟨11, _⟩ => ⟨S1x1024, .i32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bitsLt_bf16_f32 : FTy.bits .bf16 < FTy.bits .f32
  reducesTo_S4096x256_S4096_d1 : S4096x256.ReducesTo [1] S4096
  h_S_ : 0 < S_.numel
  bcast_S4096_S4096x1_0 : S4096.BroadcastsInDim S4096x1 (![0] : Fin 1 → Fin S4096x1.rank)
  reducesTo_S16384x256_S16384_d1 : S16384x256.ReducesTo [1] S16384
  bcast_S16384_S16384x1_0 : S16384.BroadcastsInDim S16384x1 (![0] : Fin 1 → Fin S16384x1.rank)
  transposes_S16384x1_S1x16384_1_0 : S16384x1.Transposes [1, 0] S1x16384
  shapeCasts_S4096_S4096x1 : S4096.ShapeCasts S4096x1
  shapeCasts_S16384_S1x16384 : S16384.ShapeCasts S1x16384
  inb_S512x1_S512x1_0_0 : ∀ a, (![0, 0] : Fin 2 → Nat) a + S512x1.size a ≤ S512x1.size a
  h_S512x1 : 0 < S512x1.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  shapeCasts_S512x1_S512x1 : S512x1.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  transposes_S1024x256_p1_0_S256x1024 : S1024x256.Transposes [1, 0] S256x1024
  broadcasts_S512x1_S512x1024 : S512x1.Broadcasts S512x1024
  broadcasts_S1x1024_S512x1024 : S1x1024.Broadcasts S512x1024
  natLt_1_32 : 1 < 32
  reduces_S512x1024_S512 : S512x1024.Reduces [1] S512
  shapeCasts_S512_S512x1 : S512.ShapeCasts S512x1
  shapeCasts_S4096x1_S4096 : S4096x1.ShapeCasts S4096
  bcast_S_S4096 : S_.BroadcastsInDim S4096 (![] : Fin 0 → Fin S4096.rank)
  reducesTo_S4096_S_d0 : S4096.ReducesTo [0] S_
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .bf16 = 32 ∨ (Rect.block (s := S4096x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S16384x256.size a
  hwx0_1 : ∀ i : grid0.Coords, EltTy.bits .bf16 = 32 ∨ (Rect.block (s := S16384x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .i32 = 32 ∨ (Rect.block (s := S4096x1) S512x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x16384.size a
  hwx0_5 : ∀ i : grid0.Coords, EltTy.bits .i32 = 32 ∨ (Rect.block (s := S1x16384) S1x1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S4096x1.size a
  hwx0_6 : ∀ i : grid0.Coords, EltTy.bits .f32 = 32 ∨ (Rect.block (s := S4096x1) S512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S4096x1.size a
  hwx0_7 : ∀ i : grid0.Coords, EltTy.bits .f32 = 32 ∨ (Rect.block (s := S4096x1) S512x1.size (cc0_transform_7 i) (hinb0_7 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_v0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11_0) S512x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v11_1) S512x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x256 : Shape := ⟨2, ![16384, 256]⟩
abbrev S4096x256 : Shape := ⟨2, ![4096, 256]⟩
abbrev S16384 : Shape := ⟨1, ![16384]⟩
abbrev S4096 : Shape := ⟨1, ![4096]⟩
abbrev S_ : Shape := ⟨0, ![]⟩
abbrev S4096x1 : Shape := ⟨2, ![4096, 1]⟩
abbrev S1x16384 : Shape := ⟨2, ![1, 16384]⟩
abbrev S4096x16384 : Shape := ⟨2, ![4096, 16384]⟩
abbrev S256x16384 : Shape := ⟨2, ![256, 16384]⟩
abbrev S16384x1 : Shape := ⟨2, ![16384, 1]⟩
abbrev S1x1000 : Shape := ⟨2, ![1, 1000]⟩
abbrev S16384x1000 : Shape := ⟨2, ![16384, 1000]⟩
abbrev S4096x1000 : Shape := ⟨2, ![4096, 1000]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S4096x256, .f32⟩
  | .hbm, ⟨2, _⟩ => ⟨S16384, .i32⟩
  | .hbm, ⟨3, _⟩ => ⟨S4096, .i32⟩
  | .hbm, ⟨4, _⟩ => ⟨S4096x256, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S16384x256, .f32⟩
  | .hbm, ⟨9, _⟩ => ⟨S_, .f32⟩
  | .hbm, ⟨10, _⟩ => ⟨S16384, .f32⟩
  | .hbm, ⟨11, _⟩ => ⟨S1x16384, .f32⟩
  | .hbm, ⟨12, _⟩ => ⟨S4096x16384, .f32⟩
  | .hbm, ⟨13, _⟩ => ⟨S4096x16384, .f32⟩
  | .hbm, ⟨14, _⟩ => ⟨S4096x16384, .f32⟩
  | .hbm, ⟨15, _⟩ => ⟨S_, .f32⟩
  | .hbm, ⟨16, _⟩ => ⟨S4096x256, .f32⟩
  | .hbm, ⟨17, _⟩ => ⟨S4096x256, .f32⟩
  | .hbm, ⟨18, _⟩ => ⟨S256x16384, .f32⟩
  | .hbm, ⟨19, _⟩ => ⟨S4096x16384, .f32⟩
  | .hbm, ⟨20, _⟩ => ⟨S4096x16384, .f32⟩
  | .hbm, ⟨21, _⟩ => ⟨S_, .f32⟩
  | .hbm, ⟨22, _⟩ => ⟨S4096x16384, .f32⟩
  | .hbm, ⟨23, _⟩ => ⟨S4096x16384, .f32⟩
  | .hbm, ⟨24, _⟩ => ⟨S_, .f32⟩
  | .hbm, ⟨25, _⟩ => ⟨S4096x16384, .f32⟩
  | .hbm, ⟨26, _⟩ => ⟨S4096x16384, .f32⟩
  | .hbm, ⟨27, _⟩ => ⟨S4096x16384, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x16384, .f32⟩
  | .hbm, ⟨36, _⟩ => ⟨S4096x16384, .f32⟩
  | .hbm, ⟨37, _⟩ => ⟨S16384x1, .i32⟩
  | .hbm, ⟨38, _⟩ => ⟨S1x1000, .i32⟩
  | .hbm, ⟨39, _⟩ => ⟨S16384x1000, .i32⟩
  | .hbm, ⟨40, _⟩ => ⟨S16384x1000, .i32⟩
  | .hbm, ⟨41, _⟩ => ⟨S16384x1000, .i1⟩
  | .hbm, ⟨42, _⟩ => ⟨S16384x1000, .f32⟩
  | .hbm, ⟨43, _⟩ => ⟨S4096x1000, .f32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S_, .i32⟩
  | .hbm, ⟨48, _⟩ => ⟨S_, .i32⟩
  | .hbm, ⟨49, _⟩ => ⟨S4096, .i32⟩
  | .hbm, ⟨50, _⟩ => ⟨S4096, .i32⟩
  | .hbm, ⟨51, _⟩ => ⟨S4096x1, .i32⟩
  | .hbm, ⟨52, _⟩ => ⟨S_, .i32⟩
  | .hbm, ⟨53, _⟩ => ⟨S4096x1, .i32⟩
  | .hbm, ⟨54, _⟩ => ⟨S4096x1, .i1⟩
  | .hbm, ⟨55, _⟩ => ⟨S_, .i32⟩
  | .hbm, ⟨56, _⟩ => ⟨S4096x1, .i32⟩
  | .hbm, ⟨57, _⟩ => ⟨S4096x1, .i32⟩
  | .hbm, ⟨58, _⟩ => ⟨S4096x1, .i32⟩
  | .hbm, ⟨59, _⟩ => ⟨S4096x1x1, .i32⟩
  | .hbm, ⟨60, _⟩ => ⟨S1, .i32⟩
  | .hbm, ⟨61, _⟩ => ⟨S_, .i32⟩
  | .hbm, ⟨62, _⟩ => ⟨S4096x1x1, .i32⟩
  | .hbm, ⟨63, _⟩ => ⟨S4096x1x1, .i1⟩
  | .hbm, ⟨64, _⟩ => ⟨S1x1x1, .i32⟩
  | .hbm, ⟨65, _⟩ => ⟨S4096x1x1, .i32⟩
  | .hbm, ⟨66, _⟩ => ⟨S4096x1x1, .i1⟩
  | .hbm, ⟨67, _⟩ => ⟨S4096x1x1, .i1⟩
  | .hbm, ⟨68, _⟩ => ⟨S_, .i1⟩
  | .hbm, ⟨69, _⟩ => ⟨S4096x1, .i1⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S4096, .f32⟩
  | .hbm, ⟨75, _⟩ => ⟨S_, .f32⟩
  | .hbm, ⟨76, _⟩ => ⟨S_, .f32⟩
  | .hbm, ⟨77, _⟩ => ⟨S4096, .f32⟩
  | .hbm, ⟨78, _⟩ => ⟨S4096, .f32⟩
  | .hbm, ⟨79, _⟩ => ⟨S4096, .f32⟩
  | .hbm, ⟨80, _⟩ => ⟨S4096, .f32⟩
  | .hbm, ⟨81, _⟩ => ⟨S4096, .f32⟩
  | .hbm, ⟨82, _⟩ => ⟨S4096, .f32⟩
  | .hbm, ⟨83, _⟩ => ⟨S_, .f32⟩
  | .hbm, ⟨84, _⟩ => ⟨S_, .f32⟩
  | .hbm, ⟨85, _⟩ => ⟨S4096, .i32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .f32⟩
  | .hbm, ⟨91, _⟩ => ⟨S_, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_call0_v0 : Ref sig .tc := ⟨.hbm, 32, rfl⟩
abbrev main_call0_v1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v24 : Ref sig .tc := ⟨.hbm, 42, rfl⟩
abbrev main_v25 : Ref sig .tc := ⟨.hbm, 43, rfl⟩
abbrev main_c : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_call2_v0 : Ref sig .tc := ⟨.hbm, 48, rfl⟩
abbrev main_call2_v1 : Ref sig .tc := ⟨.hbm, 49, rfl⟩
abbrev main_v28 : Ref sig .tc := ⟨.hbm, 50, rfl⟩
abbrev main_v29 : Ref sig .tc := ⟨.hbm, 51, rfl⟩
abbrev main_call3_c : Ref sig .tc := ⟨.hbm, 52, rfl⟩
abbrev main_call3_v0 : Ref sig .tc := ⟨.hbm, 53, rfl⟩
abbrev main_call3_v1 : Ref sig .tc := ⟨.hbm, 54, rfl⟩
abbrev main_call3_c_0 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_call3_v5 : Ref sig .tc := ⟨.hbm, 59, rfl⟩
abbrev main_call3_c_1 : Ref sig .tc := ⟨.hbm, 60, rfl⟩
abbrev main_call3_c_2 : Ref sig .tc := ⟨.hbm, 61, rfl⟩
abbrev main_call3_v6 : Ref sig .tc := ⟨.hbm, 62, rfl⟩
abbrev main_call3_v7 : Ref sig .tc := ⟨.hbm, 63, rfl⟩
abbrev main_call3_v8 : Ref sig .tc := ⟨.hbm, 64, rfl⟩
abbrev main_call3_v9 : Ref sig .tc := ⟨.hbm, 65, rfl⟩
abbrev main_call3_v10 : Ref sig .tc := ⟨.hbm, 66, rfl⟩
abbrev main_call3_v11 : Ref sig .tc := ⟨.hbm, 67, rfl⟩
abbrev main_call3_c_3 : Ref sig .tc := ⟨.hbm, 68, rfl⟩
abbrev main_call3_v12 : Ref sig .tc := ⟨.hbm, 69, rfl⟩
abbrev main_call3_v13 : Ref sig .tc := ⟨.hbm, 70, rfl⟩
abbrev main_call3_cst : Ref sig .tc := ⟨.hbm, 71, rfl⟩
abbrev main_call3_v14 : Ref sig .tc := ⟨.hbm, 72, rfl⟩
abbrev main_v30 : Ref sig .tc := ⟨.hbm, 73, rfl⟩
abbrev main_v31 : Ref sig .tc := ⟨.hbm, 74, rfl⟩
abbrev main_cst_7 : Ref sig .tc := ⟨.hbm, 75, rfl⟩
abbrev main_call4_v0 : Ref sig .tc := ⟨.hbm, 76, rfl⟩
abbrev main_call4_v1 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_cst_8 : Ref sig .tc := ⟨.hbm, 83, rfl⟩
abbrev main_v37 : Ref sig .tc := ⟨.hbm, 84, rfl⟩
abbrev main_v38 : Ref sig .tc := ⟨.hbm, 85, rfl⟩
abbrev main_c_9 : Ref sig .tc := ⟨.hbm, 86, rfl⟩
abbrev main_v39 : Ref sig .tc := ⟨.hbm, 87, rfl⟩
abbrev main_c_10 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  reducesTo_S16384x256_S16384_d1 : S16384x256.ReducesTo [1] S16384
  bcast_S16384_S1x16384_1 : S16384.BroadcastsInDim S1x16384 (![1] : Fin 1 → Fin S1x16384.rank)
  bcast_S4096x1_S4096x16384_0_1 : S4096x1.BroadcastsInDim S4096x16384 (![0, 1] : Fin 2 → Fin S4096x16384.rank)
  bcast_S1x16384_S4096x16384_0_1 : S1x16384.BroadcastsInDim S4096x16384 (![0, 1] : Fin 2 → Fin S4096x16384.rank)
  bcast_S_S4096x256 : S_.BroadcastsInDim S4096x256 (![] : Fin 0 → Fin S4096x256.rank)
  transposes_S16384x256_S256x16384_1_0 : S16384x256.Transposes [1, 0] S256x16384
  bcast_S_S4096x16384 : S_.BroadcastsInDim S4096x16384 (![] : Fin 0 → Fin S4096x16384.rank)
  reducesTo_S4096x16384_S4096_d1 : S4096x16384.ReducesTo [1] S4096
  bcast_S_S4096x1 : S_.BroadcastsInDim S4096x1 (![] : Fin 0 → Fin S4096x1.rank)
  bcast_S16384_S16384x1_0 : S16384.BroadcastsInDim S16384x1 (![0] : Fin 1 → Fin S16384x1.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  bcast_S_S4096 : S_.BroadcastsInDim S4096 (![] : Fin 0 → Fin S4096.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  natLt_1_32 : 1 < 32
  dot_S4096x256_S256x16384_S4096x16384_1_0_0_1_n_n_wf : DotDims.WF S4096x256 S256x16384 S4096x16384 [1] [0] [0] [1] [] []
  dot_S4096x16384_S16384x1000_S4096x1000_1_0_0_1_n_n_wf : DotDims.WF S4096x16384 S16384x1000 S4096x1000 [1] [0] [0] [1] [] []
  gather_S4096x1000_S4096x1x1_S4096x1_n_1_0_0_1_2_11_wf : GatherDims.WF S4096x1000 S4096x1x1 S4096x1 [] [1] [0] [1] [0] 2 ![1, 1]

variable [Facts₀]

def dot_S4096x256_S256x16384_S4096x16384_1_0_0_1_n_n : DotDims S4096x256 S256x16384 S4096x16384 where
  lhsContracting := [1]
  rhsContracting := [0]
  lhsNonContracting := [0]
  rhsNonContracting := [1]
  lhsBatch := []
  rhsBatch := []
  wf := dot_S4096x256_S256x16384_S4096x16384_1_0_0_1_n_n_wf
def dot_S4096x16384_S16384x1000_S4096x1000_1_0_0_1_n_n : DotDims S4096x16384 S16384x1000 S4096x1000 where
  lhsContracting := [1]
  rhsContracting := [0]
  lhsNonContracting := [0]
  rhsNonContracting := [1]
  lhsBatch := []
  rhsBatch := []
  wf := dot_S4096x16384_S16384x1000_S4096x1000_1_0_0_1_n_n_wf
def gather_S4096x1000_S4096x1x1_S4096x1_n_1_0_0_1_2_11 : GatherDims S4096x1000 S4096x1x1 S4096x1 where
  offsetDims := []
  collapsedSliceDims := [1]
  operandBatchingDims := [0]
  startIndicesBatchingDims := [0]
  startIndexMap := [1]
  indexVectorDim := 2
  sliceSizes := ![1, 1]
  wf := gather_S4096x1000_S4096x1x1_S4096x1_n_1_0_0_1_2_11_wf

class Facts : Prop extends Facts₀ where

variable [Facts]
-- ==== Proof.KernelPieces.lean ====
/-
  What one run of the kernel body leaves in the two accumulator blocks, as values.

  At a grid point whose column-block index is zero the body first stores a zero block in each accumulator and
  reads it back; at every other point it reads what the point before left. In both cases it then adds, to the
  labelled accumulator, the row sums of the weights masked by label equality, and to the total accumulator the
  row sums of the weights. Each accumulator ends holding one store's payload.
-/
import proofs.«428639_j38646115730022_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace KdeLoss.Kernel

open Cert.KernelIdeal Cert.KernelIdeal.Gen

variable {F : FTy → Type} [FloatOps F]

theorem hz : (![0, 0] : Fin 2 → Nat) = fun _ => 0 := funext fun a => by fin_cases a <;> rfl

/-- First column block, labelled accumulator: the zero block plus the masked weights' row sums. -/
theorem resetNumer (c : Dev nD) (i : grid0.Coords) (arg2 : Memref sig .tc .vmem S512x256 .bf16) (harg2 : arg2.IsWhole) (arg3 : Memref sig .tc .vmem S1024x256 .bf16) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (hc0 : cond0_0 i)
    (x0 : Vec F S512x256 .bf16) (x1 : Vec F S1024x256 .bf16) (x2 : Vec F S512x1 .f32) (x3 : Vec F S1x1024 .f32) (x4 : Vec F S512x1 .i32) (x5 : Vec F S1x1024 .i32) :
    out0_A_6 c i arg2 harg2 arg3 harg3 arg4 harg4 arg5 harg5 arg6 harg6 arg7 harg7 arg8 harg8 arg9 harg9 hc0 x0 x1 x2 x3 x4 x5 = k0_pay1 (k0_pay6 (k0_pay3 (F := F))) (k0_pay7 x0 x1 x2 x3 x4 x5) := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread, harg5.read_unread, harg6.read_unread, harg7.read_unread, harg8.read_unread, harg9.read_unread, View.ld_unit_zero (S := S512x256) hz, View.ld_unit_zero (S := S1024x256) hz, View.ld_unit_zero (S := S512x1) hz, View.ld_unit_zero (S := S1x1024) hz]

/-- First column block, total accumulator: the zero block plus the weights' row sums. -/
theorem resetDenom (c : Dev nD) (i : grid0.Coords) (arg2 : Memref sig .tc .vmem S512x256 .bf16) (harg2 : arg2.IsWhole) (arg3 : Memref sig .tc .vmem S1024x256 .bf16) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (hc0 : cond0_0 i)
    (x0 : Vec F S512x256 .bf16) (x1 : Vec F S1024x256 .bf16) (x2 : Vec F S512x1 .f32) (x3 : Vec F S1x1024 .f32) (x4 : Vec F S512x1 .i32) (x5 : Vec F S1x1024 .i32) :
    out0_A_7 c i arg2 harg2 arg3 harg3 arg4 harg4 arg5 harg5 arg6 harg6 arg7 harg7 arg8 harg8 arg9 harg9 hc0 x0 x1 x2 x3 x4 x5 = k0_pay2 (k0_pay5 x0 x1 x2 x3) (k0_pay4 (F := F)) := by
  unfold out0_A_7
  rw [View.read_writes_eq_canon _ _ _ (cover0_A_7 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread, harg5.read_unread, harg6.read_unread, harg7.read_unread, harg8.read_unread, harg9.read_unread, View.ld_unit_zero (S := S512x256) hz, View.ld_unit_zero (S := S1024x256) hz, View.ld_unit_zero (S := S512x1) hz, View.ld_unit_zero (S := S1x1024) hz]

/-- A later column block, labelled accumulator: what the point before left plus the masked weights' row sums. -/
theorem stepNumer (c : Dev nD) (i : grid0.Coords) (arg2 : Memref sig .tc .vmem S512x256 .bf16) (harg2 : arg2.IsWhole) (arg3 : Memref sig .tc .vmem S1024x256 .bf16) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (hc0 : ¬cond0_0 i)
    (x0 : Vec F S512x256 .bf16) (x1 : Vec F S1024x256 .bf16) (x2 : Vec F S512x1 .f32) (x3 : Vec F S1x1024 .f32) (x4 : Vec F S512x1 .i32) (x5 : Vec F S1x1024 .i32) (xo6 : Vec F S512x1 .f32) (xo7 : Vec F S512x1 .f32) :
    out0_B_6 c i arg2 harg2 arg3 harg3 arg4 harg4 arg5 harg5 arg6 harg6 arg7 harg7 arg8 harg8 arg9 harg9 hc0 x0 x1 x2 x3 x4 x5 xo6 xo7 = k0_pay1 (k0_pay6 xo6) (k0_pay7 x0 x1 x2 x3 x4 x5) := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xo6 xo7)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S512x256) hz, View.ld_unit_zero (S := S1024x256) hz, View.ld_unit_zero (S := S512x1) hz, View.ld_unit_zero (S := S1x1024) hz]

/-- A later column block, total accumulator: what the point before left plus the weights' row sums. -/
theorem stepDenom (c : Dev nD) (i : grid0.Coords) (arg2 : Memref sig .tc .vmem S512x256 .bf16) (harg2 : arg2.IsWhole) (arg3 : Memref sig .tc .vmem S1024x256 .bf16) (harg3 : arg3.IsWhole) (arg4 : Memref sig .tc .vmem S512x1 .f32) (harg4 : arg4.IsWhole) (arg5 : Memref sig .tc .vmem S1x1024 .f32) (harg5 : arg5.IsWhole) (arg6 : Memref sig .tc .vmem S512x1 .i32) (harg6 : arg6.IsWhole) (arg7 : Memref sig .tc .vmem S1x1024 .i32) (harg7 : arg7.IsWhole) (arg8 : Memref sig .tc .vmem S512x1 .f32) (harg8 : arg8.IsWhole) (arg9 : Memref sig .tc .vmem S512x1 .f32) (harg9 : arg9.IsWhole) (hc0 : ¬cond0_0 i)
    (x0 : Vec F S512x256 .bf16) (x1 : Vec F S1024x256 .bf16) (x2 : Vec F S512x1 .f32) (x3 : Vec F S1x1024 .f32) (x4 : Vec F S512x1 .i32) (x5 : Vec F S1x1024 .i32) (xo6 : Vec F S512x1 .f32) (xo7 : Vec F S512x1 .f32) :
    out0_B_7 c i arg2 harg2 arg3 harg3 arg4 harg4 arg5 harg5 arg6 harg6 arg7 harg7 arg8 harg8 arg9 harg9 hc0 x0 x1 x2 x3 x4 x5 xo6 xo7 = k0_pay2 (k0_pay5 x0 x1 x2 x3) xo7 := by
  unfold out0_B_7
  rw [View.read_writes_eq_canon _ _ _ (cover0_B_7 c i arg2 harg2 arg3 harg3 arg4 harg4 arg5 harg5 arg6 harg6 arg7 harg7 arg8 harg8 arg9 harg9 hc0 x0 x1 x2 x3 x4 x5 xo6 xo7)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S512x256) hz, View.ld_unit_zero (S := S1024x256) hz, View.ld_unit_zero (S := S512x1) hz, View.ld_unit_zero (S := S1x1024) hz]

end KdeLoss.Kernel

end
-- ==== Proof.LibMatmulPlain.lean ====
/-
  A plain matrix product, read at an index.

  For dimension numbers that contract the left operand's axis 1 with the right operand's axis 0, keep the left operand's
  axis 0 and the right operand's axis 1, and have no batch axis, the product of `l : [M, K]` and `r : [K, N]` into a zero
  accumulator is, at `(p, q)`, the sum over `k < K` of `l (p, k) · r (k, q)` on the extended reals. The contraction
  index set has one axis of extent `K`; the sum over it is re-indexed by its one coordinate.
-/
import Idealize.ShloMosaic.PureOps.Ideal.Laws
import Idealize.ShloMosaic.Lib.ValueIdx

noncomputable section

namespace Cert.Lib.MatmulPlain

open Idealize.ShloMosaic Idealize.ShloMosaic.ValueIdx

variable {M K N : Nat} (d : DotDims ⟨2, ![M, K]⟩ ⟨2, ![K, N]⟩ ⟨2, ![M, N]⟩)

/-- The contraction index set has one axis. -/
theorem contr_rank (hlc : d.lhsContracting = [1]) : d.contr.rank = 1 := by
  rw [d.rank_contr, hlc]; rfl

/-- Its extent is the contracted extent `K`. -/
theorem contr_size (hlc : d.lhsContracting = [1]) :
    d.contr.size ⟨0, by rw [contr_rank d hlc]; exact Nat.one_pos⟩ = K := by
  have key : ∀ (L : List (Fin 2)) (h : L = [1]) (hp : 0 < (Shape.ofList (L.map (⟨2, ![M, K]⟩ : Shape).size)).rank),
      (Shape.ofList (L.map (⟨2, ![M, K]⟩ : Shape).size)).size ⟨0, hp⟩ = K := by
    intro L h hp; subst h; rfl
  exact key _ hlc _

/-- The left operand's row coordinate is the result's row. -/
theorem lhs_0 (hln : d.lhsNonContracting = [0]) (hlb : d.lhsBatch = []) (j : (⟨2, ![M, N]⟩ : Shape).Idx) (k : d.contr.Idx) :
    (d.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q →
      (j ⟨p, hp⟩).val = (j ⟨q, hq⟩).val := fun p q hp hq h => by subst h; rfl
  exact key _ _ _ _ (by simp [hlb, hln])

/-- The left operand's column coordinate is the contraction position. -/
theorem lhs_1 (hlc : d.lhsContracting = [1]) (j : (⟨2, ![M, N]⟩ : Shape).Idx) (k : d.contr.Idx) :
    (d.lhsIdx j k 1).val = (k ⟨0, by rw [contr_rank d hlc]; exact Nat.one_pos⟩).val :=
  d.lhsIdx_val_of_single hlc j k

/-- The right operand's row coordinate is the contraction position. -/
theorem rhs_0 (hlc : d.lhsContracting = [1]) (hrc : d.rhsContracting = [0]) (j : (⟨2, ![M, N]⟩ : Shape).Idx) (k : d.contr.Idx) :
    (d.rhsIdx j k 0).val = (k ⟨0, by rw [contr_rank d hlc]; exact Nat.one_pos⟩).val :=
  d.rhsIdx_val_of_single hrc j k

/-- The right operand's column coordinate is the result's column. -/
theorem rhs_1 (hrn : d.rhsNonContracting = [1]) (hln : d.lhsNonContracting = [0]) (hlb : d.lhsBatch = []) (hrb : d.rhsBatch = [])
    (j : (⟨2, ![M, N]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q →
      (j ⟨p, hp⟩).val = (j ⟨q, hq⟩).val := fun p q hp hq h => by subst h; rfl
  exact key _ _ _ _ (by simp [hlb, hln, hrn])

/-- THE PRODUCT AT `(p, q)`: the sum over the contracted coordinate of the operands' products. -/
theorem matmul_zero_apply {φ₁ φ₂ : FTy} (hlc : d.lhsContracting = [1]) (hrc : d.rhsContracting = [0])
    (hln : d.lhsNonContracting = [0]) (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q)
      = ∑ k : Fin K, l (ix2 p k) * r (ix2 k q) := by
  rw [Ideal.matmul_constant_zero_apply]
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_0 d hln hlb _ _
    | ⟨1, _⟩ => exact (lhs_1 d hlc _ _).trans hk
  have er : d.rhsIdx (ix2 p q) ((contrEquiv1 d K (contr_rank d hlc) (contr_size d hlc)).symm k) = ix2 k q := by
    funext a; apply Fin.ext
    match a with
    | ⟨0, _⟩ => exact (rhs_0 d hlc hrc _ _).trans hk
    | ⟨1, _⟩ => exact rhs_1 d hrn hln hlb hrb _ _
  rw [el, er]

end Cert.Lib.MatmulPlain

end
-- ==== Proof.LibColumn.lean ====
/-
  A column vector made from a vector, and broadcast along rows, read at an index.

  A vector `x : [a]` cast to the column `[a, 1]` reads, at `(i, u)`, `x i`; a column `v : [a, 1]` broadcast to `[a, b]`
  reads, at `(p, c)`, the column's entry of row `p`. Together: a per-row quantity (a row's maximum, a row's sum) kept as a
  column and subtracted from or divided into every entry of its row.
-/
import Idealize.ShloMosaic.Lib.Pipeline.Value
import Idealize.ShloMosaic.Lib.ValueIdx
import Idealize.ShloMosaic.Lib.ValueLayout

noncomputable section

namespace Cert.Lib.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and broadcast along the rows reads, at `(p, c)`, the vector at `p`. -/
theorem broadcastTo_column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.Lib.Column

end
-- ==== Proof.LibLaneSums.lean ====
/-
  Sums over the last axis, and a value kept along a new last axis, read at an index.

  On the extended reals a `vector.multi_reduction <add>` over the last axis of a rank-2 array `[a, b]` reads, at row `r`,
  the sum over `k` of the entries `(r, k)`; over the last axis of a rank-3 array `[a, b, c]` it reads, at `(p, q)`, the sum
  over `k` of the entries `(p, q, k)`. A rank-2 array `[a, b]` cast to `[a, b, 1]` and broadcast to `[a, b, c]` reads, at
  `(p, q, k)`, the array at `(p, q)`: a per-position quantity applied to every entry of the last axis.
-/
import Idealize.ShloMosaic.PureOps.Ideal.Laws
import Idealize.ShloMosaic.Lib.Pipeline.Value
import Idealize.ShloMosaic.Lib.ValueIdx

noncomputable section

namespace Cert.Lib.LaneSums

open Idealize.ShloMosaic Idealize.ShloMosaic.ValueIdx

/-- The sum over the columns of a rank-2 array, at row `r`. -/
theorem sum_axis1_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v _ h hφ hacc (ix1 r)).trans ?_
  refine Finset.sum_congr rfl fun k _ => congrArg v ?_
  funext c
  apply Fin.ext
  match c with
  | ⟨0, _⟩ => rfl
  | ⟨1, _⟩ => rfl

/-- The sum over the last axis of a rank-3 array, at `(p, q)`. -/
theorem sum_axis2_apply {a b c : ℕ} (v : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (p : Fin a) (q : Fin b) :
    multiReduction .add [2] ⟨2, ![a, b]⟩ v 0x00000000#32 h hφ hacc (ix2 p q) = ∑ k : Fin c, v (ix3 p q k) := by
  refine (Ideal.multiReduction_add_single v _ h hφ hacc (ix2 p q)).trans ?_
  refine Finset.sum_congr rfl fun k _ => congrArg v ?_
  funext d
  apply Fin.ext
  match d with
  | ⟨0, _⟩ => rfl
  | ⟨1, _⟩ => rfl
  | ⟨2, _⟩ => rfl

variable {α : Type}

/-- An `[a, b]` array cast to `[a, b, 1]` and broadcast to `[a, b, c]` reads, at `(p, q, k)`, the array at `(p, q)`. -/
theorem broadcastTo_lastAxis_apply {a b c : ℕ} (x : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (p : Fin a) (q : Fin b) (k : Fin c) :
    broadcastTo ⟨3, ![a, b, c]⟩ (shapeCast ⟨3, ![a, b, 1]⟩ x h) h' (ix3 p q k) = x (ix2 p q) := by
  refine (broadcastTo_apply _ h' (ix3 p q k) (ix3 p q (0 : Fin 1)) fun ax => ?_).trans ?_
  · match ax with
    | ⟨0, _⟩ =>
      show p.val = if a = 1 then 0 else p.val
      split
      · have := p.isLt; omega
      · rfl
    | ⟨1, _⟩ =>
      show q.val = if b = 1 then 0 else q.val
      split
      · have := q.isLt; omega
      · rfl
    | ⟨2, _⟩ => rfl
  · refine shapeCast_apply x h _ _ ?_
    rw [Shape.rowMajor_val_two, Shape.rowMajor_val_three]
    show p.val * b + q.val = (p.val * b + q.val) * 1 + 0
    omega

end Cert.Lib.LaneSums

end
-- ==== Proof.KernelPayload.lean ====
/-
  The kernel body's arithmetic read at one entry, on the extended reals.

  For a block of 512 query rows and 1024 support rows the body forms, at `(p, q)`, the weight
  `exp (max ((|p|² + |q|²) - 2 · ∑ₖ p_k q_k) 0 · (-1/256))` from the two embedding blocks and the two blocks of squared
  norms; the masked weight is the weight times `1` where the query's label equals the support row's label and `0`
  elsewhere; and each accumulator column gains, at row `p`, the sum over the 1024 columns of its operand.
-/
import proofs.«428639_j38646115730022_2_alg».proof.Proof.Gen.KernelIdeal.Skeleton
import proofs.«428639_j38646115730022_2_alg».proof.Proof.LibMatmulPlain
import proofs.«428639_j38646115730022_2_alg».proof.Proof.LibColumn
import proofs.«428639_j38646115730022_2_alg».proof.Proof.LibLaneSums
import Idealize.ShloMosaic.PureOps.Ideal.Laws
import Idealize.ShloMosaic.Lib.Pipeline.Value
import Idealize.ShloMosaic.Lib.ValueIdx
import Idealize.ShloMosaic.Lib.ValueLayout

noncomputable section

open Idealize.ShloMosaic Idealize.ShloMosaic.ValueIdx

namespace KdeLoss.Kernel

open Cert.KernelIdeal Cert.KernelIdeal.Gen Cert.Lib.MatmulPlain Cert.Lib.Column Cert.Lib.LaneSums

variable {α : Type}

/-- A column of 512 entries broadcast over 1024 columns reads, at `(p, q)`, the column at row `p`. -/
theorem colBcast (v : S512x1.Idx → α) (h1 : S512x1.ShapeCasts S512x1) (h2 : S512x1.Broadcasts S512x1024)
    (p : Fin 512) (q : Fin 1024) :
    broadcastTo S512x1024 (shapeCast S512x1 v h1) h2 (ix2 p q) = v (ix2 p (0 : Fin 1)) := by
  rw [shapeCast_self]
  exact broadcastTo_a1_ab_apply v h2 p q

/-- A row of 1024 entries broadcast over 512 rows reads, at `(p, q)`, the row at column `q`. -/
theorem rowBcast (v : S1x1024.Idx → α) (h1 : S1x1024.ShapeCasts S1x1024) (h2 : S1x1024.Broadcasts S512x1024)
    (p : Fin 512) (q : Fin 1024) :
    broadcastTo S512x1024 (shapeCast S1x1024 v h1) h2 (ix2 p q) = v (ix2 (0 : Fin 1) q) := by
  rw [shapeCast_self]
  exact broadcastTo_1b_ab_apply v h2 p q

/-- One-bit equality of two label words, widened and read as a number: `1` where they are equal, `0` elsewhere. -/
theorem hitWord (a b : BitVec 32) :
    ((((IntOp.cmpi .eq a b).setWidth 32).toInt : ℝ) : EReal) = if a = b then 1 else 0 := by
  by_cases h : a = b
  · subst h; simp [IntOp.cmpi]
  · rw [if_neg h]
    have : (a == b) = false := by simpa using h
    simp [IntOp.cmpi, this]

variable (x0 : FVec Ideal S512x256 .bf16) (x1 : FVec Ideal S1024x256 .bf16) (x2 : FVec Ideal S512x1 .f32)
  (x3 : FVec Ideal S1x1024 .f32) (x4 : IVec S512x1 32) (x5 : IVec S1x1024 32)

/-- The dot product of query row `p` with support row `q`: the support block enters transposed. -/
theorem cross_apply (h0 : S512x256.ShapeCasts S512x256) (h1 : S1024x256.ShapeCasts S1024x256)
    (ht : S1024x256.Transposes [1, 0] S256x1024) (p : Fin 512) (q : Fin 1024) :
    matmul dot_S512x256_S256x1024_S512x1024_1_0_0_1_n_n none (shapeCast S512x256 x0 h0)
        (transpose S256x1024 [1, 0] (shapeCast S1024x256 x1 h1) ht) (constant S512x1024 .f32 0x00000000#32) (ix2 p q)
      = ∑ k : Fin 256, x0 (ix2 p k) * x1 (ix2 q k) := by
  rw [shapeCast_self, shapeCast_self]
  refine (matmul_zero_apply dot_S512x256_S256x1024_S512x1024_1_0_0_1_n_n rfl rfl rfl rfl rfl rfl none x0
    (transpose S256x1024 [1, 0] x1 ht) p q).trans ?_
  refine Finset.sum_congr rfl fun k _ => ?_
  rw [transpose_ix2_apply]

/-- The weight at `(p, q)`. -/
theorem weight_apply (p : Fin 512) (q : Fin 1024) :
    k0_pay5 (F := Ideal) x0 x1 x2 x3 (ix2 p q)
      = Ideal.exp (max ((x2 (ix2 p (0 : Fin 1)) + x3 (ix2 (0 : Fin 1) q))
          - Ideal.ofBits .f32 0x40000000#32 * ∑ k : Fin 256, x0 (ix2 p k) * x1 (ix2 q k))
          (Ideal.ofBits .f32 0x00000000#32) * Ideal.ofBits .f32 0xBB800000#32) := by
  unfold k0_pay5
  show Ideal.exp (max ((broadcastTo S512x1024 (shapeCast S512x1 x2 _) _ (ix2 p q)
      + broadcastTo S512x1024 (shapeCast S1x1024 x3 _) _ (ix2 p q))
      - Ideal.ofBits .f32 0x40000000#32 * matmul dot_S512x256_S256x1024_S512x1024_1_0_0_1_n_n none (shapeCast S512x256 x0 _)
          (transpose S256x1024 [1, 0] (shapeCast S1024x256 x1 _) _) (constant S512x1024 .f32 0x00000000#32) (ix2 p q))
      (Ideal.ofBits .f32 0x00000000#32) * Ideal.ofBits .f32 0xBB800000#32) = _
  rw [colBcast, rowBcast, cross_apply]

/-- The masked weight at `(p, q)`: the weight where the labels agree, zero elsewhere. -/
theorem masked_apply (p : Fin 512) (q : Fin 1024) :
    k0_pay7 (F := Ideal) x0 x1 x2 x3 x4 x5 (ix2 p q)
      = k0_pay5 (F := Ideal) x0 x1 x2 x3 (ix2 p q)
          * (if x4 (ix2 p (0 : Fin 1)) = x5 (ix2 (0 : Fin 1) q) then 1 else 0) := by
  unfold k0_pay7
  show k0_pay5 (F := Ideal) x0 x1 x2 x3 (ix2 p q)
      * ((((IntOp.cmpi .eq (broadcastTo S512x1024 (shapeCast S512x1 x4 _) _ (ix2 p q))
          (broadcastTo S512x1024 (shapeCast S1x1024 x5 _) _ (ix2 p q))).setWidth 32).toInt : ℝ) : EReal) = _
  rw [colBcast, rowBcast, hitWord]

/-- An accumulator column plus the row sums of a block, at row `p`: the labelled accumulator's update. -/
theorem addRowSums_apply (acc : FVec Ideal S512x1 .f32) (v : FVec Ideal S512x1024 .f32) (p : Fin 512) :
    k0_pay1 (F := Ideal) acc v (ix2 p (0 : Fin 1)) = acc (ix2 p (0 : Fin 1)) + ∑ q : Fin 1024, v (ix2 p q) := by
  unfold k0_pay1
  show acc (ix2 p (0 : Fin 1)) + shapeCast S512x1 (multiReduction .add [1] S512 v 0x00000000#32 _ _ _) _ (ix2 p (0 : Fin 1)) = _
  rw [shapeCast_a_a1_apply]
  exact congrArg (acc (ix2 p (0 : Fin 1)) + ·) (sum_axis1_apply v _ _ _ p)

/-- The same for the total accumulator (its operands come in the other order). -/
theorem addRowSums_apply' (v : FVec Ideal S512x1024 .f32) (acc : FVec Ideal S512x1 .f32) (p : Fin 512) :
    k0_pay2 (F := Ideal) v acc (ix2 p (0 : Fin 1)) = acc (ix2 p (0 : Fin 1)) + ∑ q : Fin 1024, v (ix2 p q) := by
  unfold k0_pay2
  show shapeCast S512x1 acc _ (ix2 p (0 : Fin 1))
      + shapeCast S512x1 (multiReduction .add [1] S512 v 0x00000000#32 _ _ _) _ (ix2 p (0 : Fin 1)) = _
  rw [shapeCast_self, shapeCast_a_a1_apply]
  exact congrArg (acc (ix2 p (0 : Fin 1)) + ·) (sum_axis1_apply v _ _ _ p)

/-- What is read back from an accumulator is what it holds. -/
theorem carried_eq (acc : FVec Ideal S512x1 .f32) : k0_pay6 (F := Ideal) acc = acc := by
  unfold k0_pay6
  exact shapeCast_self _ _

/-- The two zero blocks. -/
theorem zeroNumer_apply (j : S512x1.Idx) : k0_pay3 (F := Ideal) j = Ideal.ofBits .f32 0x00000000#32 := rfl
theorem zeroDenom_apply (j : S512x1.Idx) : k0_pay4 (F := Ideal) j = Ideal.ofBits .f32 0x00000000#32 := rfl

end KdeLoss.Kernel

end
-- ==== Proof.KdeSpec.lean ====
/-
  The kernel-density log loss, row by row, as functions of the four argument arrays on the extended reals.

  For a query row `i` and a support row `j` the squared distance is `|p_i|² + |s_j|² - 2 p_i·s_j`, floored at zero, and
  the radial weight is `exp (-d² / 256)`. A query's class probability is the weight of the support rows carrying its
  label over the weight of all support rows (the total floored at `1e-10`); its loss is minus the logarithm of that
  probability (floored at `1e-10`), counted only when its label is not the ignore label `-100`; the result is the mean
  over the counted rows.

  Two spellings of one row's loss are stated here. `rowK` scales the dot product after the sum, multiplies by the
  reciprocal `-1/256`, and divides the labelled weight once by the total; `rowR` doubles the query before the dot
  product, divides by `-256`, divides every weight by the total and sums the labelled quotients. `meanOver` is
  the shared last step: the sum of the rows' losses over the number of counted rows (at least one).
-/
import Idealize.ShloMosaic.PureOps.Ideal.Laws
import Idealize.ShloMosaic.PureOps.Contract
import Idealize.ShloMosaic.Lib.ValueIdx

noncomputable section

namespace KdeLoss

open Idealize.ShloMosaic Idealize.ShloMosaic.ValueIdx

abbrev Supp : Shape := ⟨2, ![16384, 256]⟩
abbrev Pred : Shape := ⟨2, ![4096, 256]⟩
abbrev SuppT : Shape := ⟨1, ![16384]⟩
abbrev PredT : Shape := ⟨1, ![4096]⟩
abbrev Sc : Shape := ⟨0, ![]⟩

/-- The words the two programs share: `0`, `2`, `1e-10` as f32 patterns read on the extended reals. -/
def zero32 : EReal := Ideal.ofBits .f32 0x00000000#32
def two32 : EReal := Ideal.ofBits .f32 0x40000000#32
def eps32 : EReal := Ideal.ofBits .f32 0x2EDBE6FF#32
/-- `-1/256` (the kernel's factor) and `-256` (the reference's divisor). -/
def negInv256 : EReal := Ideal.ofBits .f32 0xBB800000#32
def neg256 : EReal := Ideal.ofBits .f32 0xC3800000#32

section rows

variable (supp : Supp.Idx → EReal) (pred : Pred.Idx → EReal) (stgt : SuppT.Idx → BitVec 32) (tgt : PredT.Idx → BitVec 32)

/-- Squared norm of query row `i` and of support row `j`. -/
def predSq (i : Fin 4096) : EReal := zero32 + ∑ k : Fin 256, pred (ix2 i k) * pred (ix2 i k)
def suppSq (j : Fin 16384) : EReal := zero32 + ∑ k : Fin 256, supp (ix2 j k) * supp (ix2 j k)

/-- A query row counts unless its label is the ignore label `-100`. -/
def valid (i : Fin 4096) : EReal := if tgt (ix1 i) = 4294967196#32 then 0 else 1

/-! ### One spelling: scale after the dot product, multiply by the reciprocal, divide once -/

def rbfK (i : Fin 4096) (j : Fin 16384) : EReal :=
  Ideal.exp (max ((predSq pred i + suppSq supp j) - two32 * ∑ k : Fin 256, pred (ix2 i k) * supp (ix2 j k)) zero32 * negInv256)
def hitK (i : Fin 4096) (j : Fin 16384) : EReal := if tgt (ix1 i) = stgt (ix1 j) then 1 else 0
def numerK (i : Fin 4096) : EReal := zero32 + ∑ j : Fin 16384, rbfK supp pred i j * hitK stgt tgt i j
def denomK (i : Fin 4096) : EReal := zero32 + ∑ j : Fin 16384, rbfK supp pred i j
def rowK (i : Fin 4096) : EReal :=
  (-(Ideal.log (max (Ideal.div (numerK supp pred stgt tgt i) (max (denomK supp pred i) eps32)) eps32))) * valid tgt i

/-! ### The other: double the query first, divide by `-256`, divide every weight by the total -/

def rbfR (i : Fin 4096) (j : Fin 16384) : EReal :=
  Ideal.exp (Ideal.div (max ((predSq pred i + suppSq supp j) - ∑ k : Fin 256, (two32 * pred (ix2 i k)) * supp (ix2 j k)) zero32) neg256)
def denomR (i : Fin 4096) : EReal := zero32 + ∑ j : Fin 16384, rbfR supp pred i j
/-- The class column a row reads: its label, or class `0` for an ignored row. -/
def cls (i : Fin 4096) : BitVec 32 := if tgt (ix1 i) = 4294967196#32 then 0#32 else tgt (ix1 i)
def probR (i : Fin 4096) : EReal :=
  ∑ j : Fin 16384, Ideal.div (rbfR supp pred i j) (max eps32 (denomR supp pred i)) * (if stgt (ix1 j) = cls tgt i then 1 else 0)
def rowR (i : Fin 4096) : EReal := (-(Ideal.log (max eps32 (probR supp pred stgt tgt i)))) * valid tgt i

end rows

/-- The mean of the rows' losses over the counted rows: the sum of `z` over the number of labels that are not `-100`,
    that number floored at one. -/
def meanOver (hb : Sc.BroadcastsInDim PredT (![] : Fin 0 → Fin PredT.rank)) (hr : PredT.ReducesTo [0] Sc) (h0 : 0 < Sc.numel) (hlt : 1 < 32)
    (z : FVec Ideal PredT .f32) (tgt : IVec PredT 32) : FVec Ideal Sc .f32 :=
  Host.divf (Host.reduceAdd z (constant Sc .f32 0x00000000#32) hr h0)
    (sitofp .f32 (maxsi (Host.reduce IntOp.addi (extui 32 (cmpi .ne tgt (broadcastInDim PredT ![] hb (constantI Sc 32 4294967196#32))) hlt)
      (constantI Sc 32 0#32) hr h0) (constantI Sc 32 1#32)))

end KdeLoss

end
-- ==== Proof.KernelBlocks.lean ====
/-
  The blocks the kernel body is given at a grid point, read off the argument arrays.

  The grid is 8 row blocks of 512 query rows by 16 column blocks of 1024 support rows, visited row block by row
  block: point `t` is row block `t / 16` and column block `t % 16`. The body's six input blocks are the query
  embeddings' row block, the support embeddings' column block, the query rows' squared norms (a column), the support
  rows' squared norms (a row), the query labels (a column) and the support labels (a row). The squared norms are sums
  over the 256 features computed before the kernel is launched; the embeddings pass through a change of float format,
  which is the identity on the extended reals; the labels are reshaped.
-/
import proofs.«428639_j38646115730022_2_alg».proof.Proof.Gen.KernelIdeal.Frame
import proofs.«428639_j38646115730022_2_alg».proof.Proof.KdeSpec
import proofs.«428639_j38646115730022_2_alg».proof.Proof.LibColumn
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem Idealize.ShloMosaic.ValueIdx

namespace KdeLoss.Kernel

open Cert.KernelIdeal Cert.KernelIdeal.Gen KdeLoss

variable (m : (ℓ : Loc nD τ sig) → Buf (Elt Ideal) ℓ) (c : Dev nD)

/-- The argument arrays on core `c`. -/
abbrev suppArr : FVec Ideal S16384x256 .f32 := m ((c.tc : Thread nD τ).loc main_arg0)
abbrev predArr : FVec Ideal S4096x256 .f32 := m ((c.tc : Thread nD τ).loc main_arg1)
abbrev stgtArr : IVec S16384 32 := m ((c.tc : Thread nD τ).loc main_arg2)
abbrev tgtArr : IVec S4096 32 := m ((c.tc : Thread nD τ).loc main_arg3)

/-- Query row `p` of the row block of point `t`, and support row `q` of its column block. -/
def rowOf (t : Fin cfg0.N) (p : Fin 512) : Fin 4096 :=
  ⟨512 * (t.val / 16) + p.val, by have := t.isLt; have := p.isLt; have h : cfg0.N = 128 := N_0; omega⟩
def colOf (t : Fin cfg0.N) (q : Fin 1024) : Fin 16384 :=
  ⟨1024 * (t.val % 16) + q.val, by have := q.isLt; omega⟩

/-- The six input blocks at point `t`, at their literal types. -/
abbrev predBlk (t : Fin cfg0.N) : FVec Ideal S512x256 .bf16 := iblk m c 0 t
abbrev suppBlk (t : Fin cfg0.N) : FVec Ideal S1024x256 .bf16 := iblk m c 1 t
abbrev predSqBlk (t : Fin cfg0.N) : FVec Ideal S512x1 .f32 := iblk m c 2 t
abbrev suppSqBlk (t : Fin cfg0.N) : FVec Ideal S1x1024 .f32 := iblk m c 3 t
abbrev tgtBlk (t : Fin cfg0.N) : IVec S512x1 32 := iblk m c 4 t
abbrev stgtBlk (t : Fin cfg0.N) : IVec S1x1024 32 := iblk m c 5 t

/-- The block each window reads at point `t`, axis by axis: the query-side windows (embeddings, squared norms, labels)
    take row block `t / 16`, the support-side ones column block `t % 16`, and every other block coordinate is `0`;
    decided over the 128 points of the grid. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0
    ∧ win0_5.index t (0 : Fin 2) = 0 ∧ win0_5.index t (1 : Fin 2) = t.val % 16 :=
  (by decide +kernel : ∀ t : Fin grid0.N, _)

/-! ### The embeddings: a change of float format, the identity on the extended reals -/

/-- The query embeddings as the kernel is given them: the argument array under the change of float format. -/
theorem V_v0 : (V m c main_v0 : FVec Ideal S4096x256 .bf16) = truncf .bf16 (predArr m c) bitsLt_bf16_f32 := by
  show StableHlo.after hostOps0 (fun b => m (c, b)) (Proc.devRef .tc main_v0) = _
  after_results

/-- The support embeddings as the kernel is given them: the argument array under the change of float format. -/
theorem V_v1 : (V m c main_v1 : FVec Ideal S16384x256 .bf16) = truncf .bf16 (suppArr m c) bitsLt_bf16_f32 := by
  show StableHlo.after hostOps0 (fun b => m (c, b)) (Proc.devRef .tc main_v1) = _
  after_results

theorem predBlk_apply (t : Fin cfg0.N) (p : Fin 512) (k : Fin 256) :
    predBlk m c t (ix2 p k) = predArr m c (ix2 (rowOf t p) k) := by
  unfold predBlk iblk
  rw [View.read_apply]
  show V m c main_v0 (((cfg0.win 0).blk t).view.emb (ix2 p k)) = _
  rw [V_v0, truncf_apply]
  obtain ⟨e00, e01, -⟩ := idx_facts t
  refine congrArg (predArr m c) (funext fun a => Fin.ext ?_)
  match a with
  | ⟨0, _⟩ => show win0_0.index t (0 : Fin 2) * 512 + 1 * p.val = 512 * (t.val / 16) + p.val; omega
  | ⟨1, _⟩ => show win0_0.index t (1 : Fin 2) * 256 + 1 * k.val = k.val; omega

theorem suppBlk_apply (t : Fin cfg0.N) (q : Fin 1024) (k : Fin 256) :
    suppBlk m c t (ix2 q k) = suppArr m c (ix2 (colOf t q) k) := by
  unfold suppBlk iblk
  rw [View.read_apply]
  show V m c main_v1 (((cfg0.win 1).blk t).view.emb (ix2 q k)) = _
  rw [V_v1, truncf_apply]
  obtain ⟨-, -, e10, e11, -⟩ := idx_facts t
  refine congrArg (suppArr m c) (funext fun a => Fin.ext ?_)
  match a with
  | ⟨0, _⟩ => show win0_1.index t (0 : Fin 2) * 1024 + 1 * q.val = 1024 * (t.val % 16) + q.val; omega
  | ⟨1, _⟩ => show win0_1.index t (1 : Fin 2) * 256 + 1 * k.val = k.val; omega

/-! ### The squared norms: a row's sum of squares, kept as a column or as a row -/

/-- The sum over the 256 features of the squares of row `i` of a `[4096, 256]` array, from zero, kept as a column. -/
theorem sqColumn_apply (x : FVec Ideal S4096x256 .f32) (i : Fin 4096) :
    (broadcastInDim S4096x1 ![0] bcast_S4096_S4096x1_0
      (Host.reduceAdd (F := Ideal) (mulf x x) (constant (F := Ideal) S_ .f32 0x00000000#32) reducesTo_S4096x256_S4096_d1 h_S_)
        : FVec Ideal S4096x1 .f32) (ix2 i (0 : Fin 1)) = predSq x i := by
  rw [broadcastInDim_apply _ bcast_S4096_S4096x1_0 _ (ix2 i (0 : Fin 1)) (ix1 i) (fun a => match a with
    | ⟨0, _⟩ => by show i.val = if (4096 : Nat) = 1 then 0 else i.val; rw [if_neg (by decide)])]
  simp only [Host.reduceAdd, Ideal.hostReduceAdd_def]
  rw [Ideal.hostReduceAdd_single reducesTo_S4096x256_S4096_d1 (by decide)]
  unfold predSq zero32
  refine congrArg₂ (· + ·) rfl (Finset.sum_congr rfl fun k _ => ?_)
  have e : ∀ h : S4096x256.Reduces [1] S4096, h.lift (ix1 i) k = ix2 i k := fun h =>
    funext fun a => Fin.ext (by match a with | ⟨0, _⟩ => rfl | ⟨1, _⟩ => rfl)
  rw [mulf_apply, e]
  rfl

/-- The same for a `[16384, 256]` array, the column then turned into a row. -/
theorem sqRow_apply (x : FVec Ideal S16384x256 .f32) (j : Fin 16384) :
    (transpose S1x16384 [1, 0] (broadcastInDim S16384x1 ![0] bcast_S16384_S16384x1_0
      (Host.reduceAdd (F := Ideal) (mulf x x) (constant (F := Ideal) S_ .f32 0x00000000#32) reducesTo_S16384x256_S16384_d1 h_S_))
        transposes_S16384x1_S1x16384_1_0 : FVec Ideal S1x16384 .f32) (ix2 (0 : Fin 1) j) = suppSq x j := by
  rw [transpose_ix2_apply]
  rw [broadcastInDim_apply _ bcast_S16384_S16384x1_0 _ (ix2 j (0 : Fin 1)) (ix1 j) (fun a => match a with
    | ⟨0, _⟩ => by show j.val = if (16384 : Nat) = 1 then 0 else j.val; rw [if_neg (by decide)])]
  simp only [Host.reduceAdd, Ideal.hostReduceAdd_def]
  rw [Ideal.hostReduceAdd_single reducesTo_S16384x256_S16384_d1 (by decide)]
  unfold suppSq zero32
  refine congrArg₂ (· + ·) rfl (Finset.sum_congr rfl fun k _ => ?_)
  have e : ∀ h : S16384x256.Reduces [1] S16384, h.lift (ix1 j) k = ix2 j k := fun h =>
    funext fun a => Fin.ext (by match a with | ⟨0, _⟩ => rfl | ⟨1, _⟩ => rfl)
  rw [mulf_apply, e]
  rfl

/-- The query rows' squared norms as the kernel is given them: the product of the array with itself, summed over the
    features from zero, kept as a column. -/
theorem V_v4 : (V m c main_v4 : FVec Ideal S4096x1 .f32) = broadcastInDim S4096x1 ![0] bcast_S4096_S4096x1_0
    (Host.reduceAdd (F := Ideal) (mulf (predArr m c) (predArr m c)) (constant (F := Ideal) S_ .f32 0x00000000#32)
      reducesTo_S4096x256_S4096_d1 h_S_) := by
  show StableHlo.after hostOps0 (fun b => m (c, b)) (Proc.devRef .tc main_v4) = _
  after_results

/-- The support rows' squared norms as the kernel is given them: the same sum, the column turned into a row. -/
theorem V_v8 : (V m c main_v8 : FVec Ideal S1x16384 .f32) = transpose S1x16384 [1, 0]
    (broadcastInDim S16384x1 ![0] bcast_S16384_S16384x1_0
      (Host.reduceAdd (F := Ideal) (mulf (suppArr m c) (suppArr m c)) (constant (F := Ideal) S_ .f32 0x00000000#32)
        reducesTo_S16384x256_S16384_d1 h_S_)) transposes_S16384x1_S1x16384_1_0 := by
  show StableHlo.after hostOps0 (fun b => m (c, b)) (Proc.devRef .tc main_v8) = _
  after_results

theorem predSqBlk_apply (t : Fin cfg0.N) (p : Fin 512) :
    predSqBlk m c t (ix2 p (0 : Fin 1)) = predSq (predArr m c) (rowOf t p) := by
  unfold predSqBlk iblk
  rw [View.read_apply]
  show V m c main_v4 (((cfg0.win 2).blk t).view.emb (ix2 p (0 : Fin 1))) = _
  rw [V_v4, ← sqColumn_apply]
  obtain ⟨-, -, -, -, e20, e21, -⟩ := idx_facts t
  refine congrArg _ (funext fun a => Fin.ext ?_)
  match a with
  | ⟨0, _⟩ => show win0_2.index t (0 : Fin 2) * 512 + 1 * p.val = 512 * (t.val / 16) + p.val; omega
  | ⟨1, _⟩ => show win0_2.index t (1 : Fin 2) * 1 + 1 * 0 = 0; omega

theorem suppSqBlk_apply (t : Fin cfg0.N) (q : Fin 1024) :
    suppSqBlk m c t (ix2 (0 : Fin 1) q) = suppSq (suppArr m c) (colOf t q) := by
  unfold suppSqBlk iblk
  rw [View.read_apply]
  show V m c main_v8 (((cfg0.win 3).blk t).view.emb (ix2 (0 : Fin 1) q)) = _
  rw [V_v8, ← sqRow_apply]
  obtain ⟨-, -, -, -, -, -, e30, e31, -⟩ := idx_facts t
  refine congrArg _ (funext fun a => Fin.ext ?_)
  match a with
  | ⟨0, _⟩ => show win0_3.index t (0 : Fin 2) * 1 + 1 * 0 = 0; omega
  | ⟨1, _⟩ => show win0_3.index t (1 : Fin 2) * 1024 + 1 * q.val = 1024 * (t.val % 16) + q.val; omega

/-! ### The labels: a vector reshaped to a column, or to a row -/

/-- The query labels as the kernel is given them: the label vector reshaped to a column. -/
theorem V_v9 : (V m c main_v9 : IVec S4096x1 32) = shapeCast S4096x1 (tgtArr m c) shapeCasts_S4096_S4096x1 := by
  show StableHlo.after hostOps0 (fun b => m (c, b)) (Proc.devRef .tc main_v9) = _
  after_results
  rfl

/-- The support labels as the kernel is given them: the label vector reshaped to a row. -/
theorem V_v10 : (V m c main_v10 : IVec S1x16384 32) = shapeCast S1x16384 (stgtArr m c) shapeCasts_S16384_S1x16384 := by
  show StableHlo.after hostOps0 (fun b => m (c, b)) (Proc.devRef .tc main_v10) = _
  after_results
  rfl

theorem tgtBlk_apply (t : Fin cfg0.N) (p : Fin 512) :
    tgtBlk m c t (ix2 p (0 : Fin 1)) = tgtArr m c (ix1 (rowOf t p)) := by
  unfold tgtBlk iblk
  rw [View.read_apply]
  show V m c main_v9 (((cfg0.win 4).blk t).view.emb (ix2 p (0 : Fin 1))) = _
  rw [V_v9, ← Cert.Lib.Column.shapeCast_a_a1_apply (tgtArr m c) shapeCasts_S4096_S4096x1 (rowOf t p) (0 : Fin 1)]
  obtain ⟨-, -, -, -, -, -, -, -, e40, e41, -⟩ := idx_facts t
  refine congrArg _ (funext fun a => Fin.ext ?_)
  match a with
  | ⟨0, _⟩ => show win0_4.index t (0 : Fin 2) * 512 + 1 * p.val = 512 * (t.val / 16) + p.val; omega
  | ⟨1, _⟩ => show win0_4.index t (1 : Fin 2) * 1 + 1 * 0 = 0; omega

theorem stgtBlk_apply (t : Fin cfg0.N) (q : Fin 1024) :
    stgtBlk m c t (ix2 (0 : Fin 1) q) = stgtArr m c (ix1 (colOf t q)) := by
  unfold stgtBlk iblk
  rw [View.read_apply]
  show V m c main_v10 (((cfg0.win 5).blk t).view.emb (ix2 (0 : Fin 1) q)) = _
  rw [V_v10, ← shapeCast_a_1a_apply (stgtArr m c) shapeCasts_S16384_S1x16384 (0 : Fin 1) (colOf t q)]
  obtain ⟨-, -, -, -, -, -, -, -, -, -, e50, e51⟩ := idx_facts t
  refine congrArg _ (funext fun a => Fin.ext ?_)
  match a with
  | ⟨0, _⟩ => show win0_5.index t (0 : Fin 2) * 1 + 1 * 0 = 0; omega
  | ⟨1, _⟩ => show win0_5.index t (1 : Fin 2) * 1024 + 1 * q.val = 1024 * (t.val % 16) + q.val; omega

end KdeLoss.Kernel

end
-- ==== Proof.KernelFold.lean ====
/-
  The two accumulators after every grid point.

  Within one row block the sixteen column blocks are visited in order, and the accumulators are carried from one to
  the next: after column block `b` the labelled accumulator holds, at query row `p`, zero plus the sum over the
  column blocks `0 … b` of the masked weights' sums over the block's 1024 support rows, and the total accumulator the
  same with the plain weights. The proof is an induction on the point: a first column block starts from the zero
  block, a later one from what the point before left.
-/
import proofs.«428639_j38646115730022_2_alg».proof.Proof.KernelPieces
import proofs.«428639_j38646115730022_2_alg».proof.Proof.KernelPayload
import proofs.«428639_j38646115730022_2_alg».proof.Proof.KernelBlocks

noncomputable section

open Idealize.ShloMosaic Idealize.ShloMosaic.TcCoe Idealize.SL.Sem Idealize.ShloMosaic.ValueIdx

namespace KdeLoss.Kernel

open Cert.KernelIdeal Cert.KernelIdeal.Gen KdeLoss

variable (m : (ℓ : Loc nD τ sig) → Buf (Elt Ideal) ℓ) (c : Dev nD)

/-- Support row `q` of column block `b` (a total function of `b`; for `b < 16` it is `1024 b + q`). -/
def colN (b : ℕ) (q : Fin 1024) : Fin 16384 := ⟨(1024 * b + q.val) % 16384, Nat.mod_lt _ (by decide)⟩

theorem colOf_eq (t : Fin cfg0.N) (q : Fin 1024) : colOf t q = colN (t.val % 16) q := by
  apply Fin.ext
  show 1024 * (t.val % 16) + q.val = (1024 * (t.val % 16) + q.val) % 16384
  have := q.isLt
  omega

/-- One column block's contribution to each accumulator at query row `i`. -/
def blkNumer (i : Fin 4096) (b : ℕ) : EReal :=
  ∑ q : Fin 1024, rbfK (suppArr m c) (predArr m c) i (colN b q) * hitK (stgtArr m c) (tgtArr m c) i (colN b q)
def blkDenom (i : Fin 4096) (b : ℕ) : EReal := ∑ q : Fin 1024, rbfK (suppArr m c) (predArr m c) i (colN b q)

/-- The weight the body forms at point `t`, entry `(p, q)`, is the weight of query row `rowOf t p` and support row
    `colOf t q`. -/
theorem weight_point (t : Fin cfg0.N) (p : Fin 512) (q : Fin 1024) :
    k0_pay5 (F := Ideal) (predBlk m c t) (suppBlk m c t) (predSqBlk m c t) (suppSqBlk m c t) (ix2 p q)
      = rbfK (suppArr m c) (predArr m c) (rowOf t p) (colOf t q) := by
  rw [weight_apply, predSqBlk_apply, suppSqBlk_apply]
  simp only [predBlk_apply, suppBlk_apply]
  rfl

theorem masked_point (t : Fin cfg0.N) (p : Fin 512) (q : Fin 1024) :
    k0_pay7 (F := Ideal) (predBlk m c t) (suppBlk m c t) (predSqBlk m c t) (suppSqBlk m c t) (tgtBlk m c t) (stgtBlk m c t) (ix2 p q)
      = rbfK (suppArr m c) (predArr m c) (rowOf t p) (colOf t q)
          * hitK (stgtArr m c) (tgtArr m c) (rowOf t p) (colOf t q) := by
  rw [masked_apply, weight_point, tgtBlk_apply, stgtBlk_apply]
  rfl

/-- The row sums the body adds at point `t` are column block `t % 16`'s contributions. -/
theorem rowSums_masked (t : Fin cfg0.N) (p : Fin 512) :
    ∑ q : Fin 1024, k0_pay7 (F := Ideal) (predBlk m c t) (suppBlk m c t) (predSqBlk m c t) (suppSqBlk m c t) (tgtBlk m c t) (stgtBlk m c t) (ix2 p q)
      = blkNumer m c (rowOf t p) (t.val % 16) :=
  Finset.sum_congr rfl fun q _ => by rw [masked_point, colOf_eq]

theorem rowSums_weight (t : Fin cfg0.N) (p : Fin 512) :
    ∑ q : Fin 1024, k0_pay5 (F := Ideal) (predBlk m c t) (suppBlk m c t) (predSqBlk m c t) (suppSqBlk m c t) (ix2 p q)
      = blkDenom m c (rowOf t p) (t.val % 16) :=
  Finset.sum_congr rfl fun q _ => by rw [weight_point, colOf_eq]

/-- A first column block: both accumulators start from zero. -/
theorem point_first (t : Fin cfg0.N) (h0 : t.val % 16 = 0) (p : Fin 512) :
    (outsAt0 m c t.val t.isLt).1 (ix2 p (0 : Fin 1)) = zero32 + blkNumer m c (rowOf t p) (t.val % 16)
    ∧ (outsAt0 m c t.val t.isLt).2 (ix2 p (0 : Fin 1)) = zero32 + blkDenom m c (rowOf t p) (t.val % 16) := by
  rw [outsAt0_A m c t h0]
  dsimp only
  rw [resetNumer (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t) (iblk m c 5 t),
    resetDenom (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t) (iblk m c 3 t) (iblk m c 4 t) (iblk m c 5 t)]
  constructor
  · refine (addRowSums_apply _ _ p).trans ?_
    rw [carried_eq, zeroNumer_apply]
    exact congrArg (zero32 + ·) (rowSums_masked m c t p)
  · refine (addRowSums_apply' _ _ p).trans ?_
    rw [zeroDenom_apply]
    exact congrArg (zero32 + ·) (rowSums_weight m c t p)

/-- A later column block: each accumulator gains the block's contribution over what the point before left. -/
theorem point_later (t : Fin cfg0.N) (h0 : ¬t.val % 16 = 0) (p : Fin 512) :
    (outsAt0 m c t.val t.isLt).1 (ix2 p (0 : Fin 1))
        = (outsAt0 m c (t.val - 1) (Nat.lt_of_le_of_lt (Nat.sub_le _ _) t.isLt)).1 (ix2 p (0 : Fin 1))
          + blkNumer m c (rowOf t p) (t.val % 16)
    ∧ (outsAt0 m c t.val t.isLt).2 (ix2 p (0 : Fin 1))
        = (outsAt0 m c (t.val - 1) (Nat.lt_of_le_of_lt (Nat.sub_le _ _) t.isLt)).2 (ix2 p (0 : Fin 1))
          + blkDenom m c (rowOf t p) (t.val % 16) := by
  rw [outsAt0_B m c t h0]
  dsimp only
  rw [stepNumer (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t) (iblk m c 5 t)
      (outsAt0 m c (t.val - 1) (Nat.lt_of_le_of_lt (Nat.sub_le _ _) t.isLt)).1 (outsAt0 m c (t.val - 1) (Nat.lt_of_le_of_lt (Nat.sub_le _ _) t.isLt)).2,
    stepDenom (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (iblk m c 3 t) (iblk m c 4 t) (iblk m c 5 t)
      (outsAt0 m c (t.val - 1) (Nat.lt_of_le_of_lt (Nat.sub_le _ _) t.isLt)).1 (outsAt0 m c (t.val - 1) (Nat.lt_of_le_of_lt (Nat.sub_le _ _) t.isLt)).2]
  constructor
  · refine (addRowSums_apply _ _ p).trans ?_
    rw [carried_eq]
    exact congrArg (_ + ·) (rowSums_masked m c t p)
  · refine (addRowSums_apply' _ _ p).trans ?_
    exact congrArg (_ + ·) (rowSums_weight m c t p)

/-- The query row a point's block row `p` stands for does not change within a row block. -/
theorem rowOf_pred (n : ℕ) (h : n + 1 < cfg0.N) (h0 : ¬(n + 1) % 16 = 0) (p : Fin 512) :
    rowOf ⟨n + 1, h⟩ p = rowOf ⟨n, Nat.lt_of_succ_lt h⟩ p := by
  apply Fin.ext
  show 512 * ((n + 1) / 16) + p.val = 512 * (n / 16) + p.val
  have : (n + 1) / 16 = n / 16 := by omega
  rw [this]

/-- THE FOLD: after point `n` the accumulators hold zero plus the contributions of column blocks `0 … n % 16`. -/
theorem fold_eq : ∀ (n : ℕ) (h : n < cfg0.N) (p : Fin 512),
    (outsAt0 m c n h).1 (ix2 p (0 : Fin 1))
        = zero32 + ∑ b ∈ Finset.range (n % 16 + 1), blkNumer m c (rowOf ⟨n, h⟩ p) b
    ∧ (outsAt0 m c n h).2 (ix2 p (0 : Fin 1))
        = zero32 + ∑ b ∈ Finset.range (n % 16 + 1), blkDenom m c (rowOf ⟨n, h⟩ p) b
  | 0, h, p => by
    have e := point_first m c ⟨0, h⟩ rfl p
    simpa using e
  | n + 1, h, p => by
    by_cases h0 : (n + 1) % 16 = 0
    · have e := point_first m c ⟨n + 1, h⟩ h0 p
      rw [show (n + 1) % 16 + 1 = 1 from by omega, Finset.sum_range_one, Finset.sum_range_one]
      rw [show ((⟨n + 1, h⟩ : Fin cfg0.N).val % 16) = 0 from h0] at e
      exact e
    · have e := point_later m c ⟨n + 1, h⟩ h0 p
      have ih := fold_eq n (Nat.lt_of_succ_lt h) p
      have hb : (n + 1) % 16 = n % 16 + 1 := by omega
      have hr := rowOf_pred n h h0 p
      constructor
      · refine e.1.trans ?_
        show (outsAt0 m c n _).1 (ix2 p (0 : Fin 1)) + blkNumer m c (rowOf ⟨n + 1, h⟩ p) ((n + 1) % 16) = _
        rw [ih.1, hr, hb, Finset.sum_range_succ (fun b => blkNumer m c (rowOf ⟨n, Nat.lt_of_succ_lt h⟩ p) b) (n % 16 + 1), add_assoc]
      · refine e.2.trans ?_
        show (outsAt0 m c n _).2 (ix2 p (0 : Fin 1)) + blkDenom m c (rowOf ⟨n + 1, h⟩ p) ((n + 1) % 16) = _
        rw [ih.2, hr, hb, Finset.sum_range_succ (fun b => blkDenom m c (rowOf ⟨n, Nat.lt_of_succ_lt h⟩ p) b) (n % 16 + 1), add_assoc]

end KdeLoss.Kernel

end
-- ==== Proof.KdeRowsAgree.lean ====
/-
  The two spellings of a row's loss are one function when every embedding entry is a real number.

  With real entries every intermediate quantity is a real number read on the extended reals: the squared norms and the
  dot product are finite sums of products, the floored squared distance a maximum of two reals, the radial weight a real
  exponential. Doubling the query before the dot product is doubling the dot product, and multiplying by `-1/256` is
  dividing by `-256`, so the two weights are one real number; the totals are then one real number, floored by a positive
  word, so the divisor is a nonzero real and dividing the labelled sum once is dividing every labelled weight. A row
  carrying the ignore label is multiplied by zero in both spellings, whatever its probability is.
-/
import Mathlib.Algebra.BigOperators.Fin
import Mathlib.Logic.Equiv.Fin.Basic
import Mathlib.Data.EReal.Basic
import Mathlib.Data.EReal.Operations
import proofs.«428639_j38646115730022_2_alg».proof.Proof.KdeSpec

noncomputable section

namespace KdeLoss

open Idealize.ShloMosaic Idealize.ShloMosaic.ValueIdx

/-- A sum over 16384 columns taken as sixteen consecutive blocks of 1024. -/
theorem sum_blocks {M : Type*} [AddCommMonoid M] (g : Fin 16384 → M) :
    ∑ b : Fin 16, ∑ q : Fin 1024, g ⟨1024 * b.val + q.val, by omega⟩ = ∑ j : Fin 16384, g j := by
  -- the pair `(b, q)` is the column `q + 1024 * b`: a bijection of `Fin 16 × Fin 1024` with the columns
  rw [← Fintype.sum_prod_type (f := fun p : Fin 16 × Fin 1024 => g ⟨1024 * p.1.val + p.2.val, by omega⟩),
    ← Equiv.sum_comp (finProdFinEquiv.trans (finCongr (show 16 * 1024 = 16384 by rfl))) g]
  refine Fintype.sum_congr _ _ ?_
  rintro ⟨b, q⟩
  congr 1
  ext
  simp [finProdFinEquiv]
  omega

/-! ### The words -/

theorem zero32_eq : zero32 = 0 := by simp [zero32, Ideal.ofBits, Ideal.ieee]
theorem two32_eq : two32 = ((2 : ℝ) : EReal) := by
  simp [two32, Ideal.ofBits, Ideal.ieee, -EReal.coe_mul]; norm_num
theorem negInv256_eq : negInv256 = ((-(1 / 256) : ℝ) : EReal) := by
  simp [negInv256, Ideal.ofBits, Ideal.ieee, -EReal.coe_mul]; norm_num
theorem neg256_eq : neg256 = ((-256 : ℝ) : EReal) := by
  simp [neg256, Ideal.ofBits, Ideal.ieee, -EReal.coe_mul]; norm_num
/-- The floor `1e-10` is a positive real; its digits play no part. -/
theorem eps32_pos : ∃ e : ℝ, 0 < e ∧ eps32 = (e : EReal) := by
  simp [eps32, Ideal.ofBits, Ideal.ieee, -EReal.coe_mul]

/-! ### Real sums and maxima read on the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

/-! ### The radial weight is one real number in both spellings -/

section real

variable (S : Supp.Idx → ℝ) (P : Pred.Idx → ℝ)

/-- The floored squared distance of query row `i` and support row `j`, as a real number. -/
def dist2 (i : Fin 4096) (j : Fin 16384) : ℝ :=
  max ((∑ k : Fin 256, P (ix2 i k) * P (ix2 i k) + ∑ k : Fin 256, S (ix2 j k) * S (ix2 j k))
    - 2 * ∑ k : Fin 256, P (ix2 i k) * S (ix2 j k)) 0
/-- The radial weight `exp (-d² / 256)`, as a real number. -/
def wgt (i : Fin 4096) (j : Fin 16384) : ℝ := Real.exp (dist2 S P i j * -(1 / 256))

theorem predSq_coe (i : Fin 4096) :
    predSq (fun x => (P x : EReal)) i = ((∑ k : Fin 256, P (ix2 i k) * P (ix2 i k) : ℝ) : EReal) := by
  rw [predSq, zero32_eq, zero_add, coe_sum]; rfl
theorem suppSq_coe (j : Fin 16384) :
    suppSq (fun x => (S x : EReal)) j = ((∑ k : Fin 256, S (ix2 j k) * S (ix2 j k) : ℝ) : EReal) := by
  rw [suppSq, zero32_eq, zero_add, coe_sum]; rfl

theorem rbfK_coe (i : Fin 4096) (j : Fin 16384) :
    rbfK (fun x => (S x : EReal)) (fun x => (P x : EReal)) i j = ((wgt S P i j : ℝ) : EReal) := by
  have hdot : (∑ k : Fin 256, (P (ix2 i k) : EReal) * (S (ix2 j k) : EReal))
      = ((∑ k : Fin 256, P (ix2 i k) * S (ix2 j k) : ℝ) : EReal) := by rw [coe_sum]; rfl
  rw [rbfK, predSq_coe, suppSq_coe, two32_eq, zero32_eq, negInv256_eq, hdot, ← EReal.coe_add, ← EReal.coe_mul,
    ← EReal.coe_sub, ← EReal.coe_zero, ← coe_max, ← EReal.coe_mul, Ideal.exp_coe]
  rfl

theorem rbfR_coe (i : Fin 4096) (j : Fin 16384) :
    rbfR (fun x => (S x : EReal)) (fun x => (P x : EReal)) i j = ((wgt S P i j : ℝ) : EReal) := by
  have hdot : (∑ k : Fin 256, (((2 : ℝ) : EReal) * (P (ix2 i k) : EReal)) * (S (ix2 j k) : EReal))
      = ((2 * ∑ k : Fin 256, P (ix2 i k) * S (ix2 j k) : ℝ) : EReal) := by
    rw [Finset.mul_sum, coe_sum]
    refine Finset.sum_congr rfl fun k _ => ?_
    rw [← EReal.coe_mul, ← EReal.coe_mul, mul_assoc]
  rw [rbfR, predSq_coe, suppSq_coe, two32_eq, zero32_eq, neg256_eq, hdot, ← EReal.coe_add,
    ← EReal.coe_sub, ← EReal.coe_zero, ← coe_max, Ideal.div_coe (by norm_num), ← EReal.coe_mul, Ideal.exp_coe]
  rw [wgt, dist2]
  congr 3
  norm_num

end real

/-! ### The quotient law: a labelled sum over the total is the sum of the labelled quotients -/

theorem sum_mul_recip {ι : Type*} [Fintype ι] (w ind : ι → ℝ) (m : ℝ) :
    (∑ j, w j * ind j) * (1 / m) = ∑ j, w j * (1 / m) * ind j := by
  rw [Finset.sum_mul]
  exact Finset.sum_congr rfl fun j _ => by ring

/-- An indicator on the extended reals is the real indicator. -/
theorem coe_ind (c : Prop) [Decidable c] : (if c then (1 : EReal) else 0) = (((if c then 1 else 0 : ℝ)) : EReal) := by
  split_ifs <;> rfl

section real

variable (S : Supp.Idx → ℝ) (P : Pred.Idx → ℝ) (stgt : SuppT.Idx → BitVec 32) (tgt : PredT.Idx → BitVec 32)

theorem denomK_coe (i : Fin 4096) :
    denomK (fun x => (S x : EReal)) (fun x => (P x : EReal)) i = ((∑ j : Fin 16384, wgt S P i j : ℝ) : EReal) := by
  rw [denomK, zero32_eq, zero_add, coe_sum]
  exact Finset.sum_congr rfl fun j _ => rbfK_coe S P i j
theorem denomR_coe (i : Fin 4096) :
    denomR (fun x => (S x : EReal)) (fun x => (P x : EReal)) i = ((∑ j : Fin 16384, wgt S P i j : ℝ) : EReal) := by
  rw [denomR, zero32_eq, zero_add, coe_sum]
  exact Finset.sum_congr rfl fun j _ => rbfR_coe S P i j
theorem numerK_coe (i : Fin 4096) :
    numerK (fun x => (S x : EReal)) (fun x => (P x : EReal)) stgt tgt i
      = ((∑ j : Fin 16384, wgt S P i j * (if tgt (ix1 i) = stgt (ix1 j) then 1 else 0) : ℝ) : EReal) := by
  rw [numerK, zero32_eq, zero_add, coe_sum]
  refine Finset.sum_congr rfl fun j _ => ?_
  rw [rbfK_coe, hitK, coe_ind, EReal.coe_mul]

/-- For a counted row the probability is one extended real in both spellings. -/
theorem prob_agree (i : Fin 4096) (hv : tgt (ix1 i) ≠ 4294967196#32) :
    Ideal.div (numerK (fun x => (S x : EReal)) (fun x => (P x : EReal)) stgt tgt i)
        (max (denomK (fun x => (S x : EReal)) (fun x => (P x : EReal)) i) eps32)
      = probR (fun x => (S x : EReal)) (fun x => (P x : EReal)) stgt tgt i := by
  obtain ⟨e, he, hE⟩ := eps32_pos
  have hm : max (∑ j : Fin 16384, wgt S P i j) e ≠ 0 := (lt_max_of_lt_right he).ne'
  rw [probR, numerK_coe, denomK_coe, denomR_coe, hE, max_comm (e : EReal), ← coe_max, Ideal.div_coe hm, ← EReal.coe_mul,
    sum_mul_recip, coe_sum]
  refine Finset.sum_congr rfl fun j _ => ?_
  rw [rbfR_coe, Ideal.div_coe hm, cls, if_neg hv, coe_ind, ← EReal.coe_mul, ← EReal.coe_mul]
  simp only [eq_comm]

end real

theorem rowK_eq_rowR (supp : Supp.Idx → EReal) (pred : Pred.Idx → EReal) (stgt : SuppT.Idx → BitVec 32) (tgt : PredT.Idx → BitVec 32)
    (hs : ∀ x, supp x ≠ ⊤ ∧ supp x ≠ ⊥) (hp : ∀ x, pred x ≠ ⊤ ∧ pred x ≠ ⊥) (i : Fin 4096) :
    rowK supp pred stgt tgt i = rowR supp pred stgt tgt i := by
  obtain ⟨S, rfl⟩ : ∃ S : Supp.Idx → ℝ, supp = fun x => (S x : EReal) :=
    ⟨fun x => (supp x).toReal, funext fun x => (EReal.coe_toReal (hs x).1 (hs x).2).symm⟩
  obtain ⟨P, rfl⟩ : ∃ P : Pred.Idx → ℝ, pred = fun x => (P x : EReal) :=
    ⟨fun x => (pred x).toReal, funext fun x => (EReal.coe_toReal (hp x).1 (hp x).2).symm⟩
  rw [rowK, rowR]
  by_cases hv : tgt (ix1 i) = 4294967196#32
  · -- an ignored row: both losses are multiplied by zero
    rw [valid, if_pos hv, mul_zero, mul_zero]
  · rw [prob_agree S P stgt tgt i hv, max_comm]

end KdeLoss

end
-- ==== Proof.KernelArrays.lean ====
/-
  The two result columns after the run.

  Each row block's accumulators are written back once, after its last column block; by then they hold zero plus the
  contributions of all sixteen column blocks, which together are the sum over all 16384 support rows. The eight row
  blocks tile the 4096 query rows, so the labelled column ends holding every query's labelled weight and the total
  column every query's total weight.
-/
import proofs.«428639_j38646115730022_2_alg».proof.Proof.KernelFold
import proofs.«428639_j38646115730022_2_alg».proof.Proof.KdeRowsAgree

noncomputable section

open Idealize.ShloMosaic Idealize.ShloMosaic.TcCoe Idealize.SL.Sem Idealize.ShloMosaic.ValueIdx

namespace KdeLoss.Kernel

open Cert.KernelIdeal Cert.KernelIdeal.Gen KdeLoss

variable (m : (ℓ : Loc nD τ sig) → Buf (Elt Ideal) ℓ) (c : Dev nD)

/-- The labelled weights and the total weights of the 4096 queries, as the two result columns. -/
abbrev numerArr : Buf (Elt Ideal) ((c.tc : Thread nD τ).loc main_v11_0) :=
  fun i : S4096x1.Idx => numerK (suppArr m c) (predArr m c) (stgtArr m c) (tgtArr m c) (i 0)
abbrev denomArr : Buf (Elt Ideal) ((c.tc : Thread nD τ).loc main_v11_1) :=
  fun i : S4096x1.Idx => denomK (suppArr m c) (predArr m c) (i 0)

theorem colN_lt (b : Fin 16) (q : Fin 1024) :
    colN b.val q = ⟨1024 * b.val + q.val, by have := b.isLt; have := q.isLt; omega⟩ :=
  Fin.ext (Nat.mod_eq_of_lt (by have := b.isLt; have := q.isLt; omega))

/-- Sixteen column blocks' contributions are the sum over all support rows. -/
theorem numer_blocks (i : Fin 4096) :
    zero32 + ∑ b ∈ Finset.range 16, blkNumer m c i b
      = numerK (suppArr m c) (predArr m c) (stgtArr m c) (tgtArr m c) i := by
  unfold numerK blkNumer
  rw [Finset.sum_range, ← sum_blocks (fun j => rbfK (suppArr m c) (predArr m c) i j * hitK (stgtArr m c) (tgtArr m c) i j)]
  refine congrArg (zero32 + ·) (Finset.sum_congr rfl fun b _ => Finset.sum_congr rfl fun q _ => ?_)
  rw [colN_lt]

theorem denom_blocks (i : Fin 4096) :
    zero32 + ∑ b ∈ Finset.range 16, blkDenom m c i b = denomK (suppArr m c) (predArr m c) i := by
  unfold denomK blkDenom
  rw [Finset.sum_range, ← sum_blocks (fun j => rbfK (suppArr m c) (predArr m c) i j)]
  refine congrArg (zero32 + ·) (Finset.sum_congr rfl fun b _ => Finset.sum_congr rfl fun q _ => ?_)
  rw [colN_lt]

/-- The result windows' block index at point `t` is its row block. -/
theorem out_idx : ∀ t : Fin cfg0.N, win0_6.index t (0 : Fin 2) = t.val / 16 ∧ win0_6.index t (1 : Fin 2) = 0
    ∧ win0_7.index t (0 : Fin 2) = t.val / 16 ∧ win0_7.index t (1 : Fin 2) = 0 :=
  (by decide +kernel : ∀ t : Fin grid0.N, _)

/-- What a row block's last point writes back is that row block of the labelled weights. -/
theorem flushedNumer (t : Fin cfg0.N) (hf : (cfg0.win 6).flush t = true) :
    (dats m 0 c).flushed 6 t = ((cfg0.win 6).blk t).view.read (Elt Ideal) (numerArr m c) := by
  have h15 : t.val % 16 = 15 := (flush0_6 t).mp hf
  show (cfg0.win 6).cut (grid0.coords t) ((dats m 0 c).after 6 t) = _
  rw [after0_6]
  funext j
  obtain ⟨p, u, rfl⟩ : ∃ (p : Fin 512) (u : Fin 1), j = ix2 p u := ⟨j 0, j 1, eq_ix2 j⟩
  obtain rfl : u = 0 := Subsingleton.elim _ _
  show (outsAt0 m c t.val t.isLt).1 (ix2 p (0 : Fin 1)) = numerArr m c (((cfg0.win 6).blk t).view.emb (ix2 p (0 : Fin 1)))
  rw [(fold_eq m c t.val t.isLt p).1, h15, numer_blocks]
  show numerK _ _ _ _ _ = numerK _ _ _ _ _
  congr 1
  apply Fin.ext
  show 512 * (t.val / 16) + p.val = win0_6.index t (0 : Fin 2) * 512 + 1 * p.val
  rw [(out_idx t).1]; omega

theorem flushedDenom (t : Fin cfg0.N) (hf : (cfg0.win 7).flush t = true) :
    (dats m 0 c).flushed 7 t = ((cfg0.win 7).blk t).view.read (Elt Ideal) (denomArr m c) := by
  have h15 : t.val % 16 = 15 := (flush0_7 t).mp hf
  show (cfg0.win 7).cut (grid0.coords t) ((dats m 0 c).after 7 t) = _
  rw [after0_7]
  funext j
  obtain ⟨p, u, rfl⟩ : ∃ (p : Fin 512) (u : Fin 1), j = ix2 p u := ⟨j 0, j 1, eq_ix2 j⟩
  obtain rfl : u = 0 := Subsingleton.elim _ _
  show (outsAt0 m c t.val t.isLt).2 (ix2 p (0 : Fin 1)) = denomArr m c (((cfg0.win 7).blk t).view.emb (ix2 p (0 : Fin 1)))
  rw [(fold_eq m c t.val t.isLt p).2, h15, denom_blocks]
  show denomK _ _ _ = denomK _ _ _
  congr 1
  apply Fin.ext
  show 512 * (t.val / 16) + p.val = win0_7.index t (0 : Fin 2) * 512 + 1 * p.val
  rw [(out_idx t).2.2.1]; omega

/-- Every query row lies in the block some row block's last point writes back. -/
theorem coverNumer (i : S4096x1.Idx) :
    ∃ t : Fin cfg0.N, (cfg0.win 6).flush t = true ∧ i ∈ ((cfg0.win 6).blk t).view.set := by
  have hN : cfg0.N = 128 := N_0
  have hi0 : (i 0).val < 4096 := (i 0).isLt
  have hi1 : (i 1).val < 1 := (i 1).isLt
  have ht : 16 * ((i 0).val / 512) + 15 < cfg0.N := by omega
  refine ⟨⟨16 * ((i 0).val / 512) + 15, ht⟩, (flush0_6 _).mpr (by show (16 * ((i 0).val / 512) + 15) % 16 = 15; omega), ?_⟩
  show i ∈ ((View.whole main_v11_0).slice (win0_6.rect ⟨16 * ((i 0).val / 512) + 15, ht⟩)).set
  rw [View.set_slice_whole, Rect.mem_set_unit]
  obtain ⟨e0, e1, -, -⟩ := out_idx ⟨16 * ((i 0).val / 512) + 15, ht⟩
  intro a
  match a with
  | ⟨0, _⟩ =>
    show win0_6.index ⟨16 * ((i 0).val / 512) + 15, ht⟩ (0 : Fin 2) * 512 ≤ (i 0).val
      ∧ (i 0).val < win0_6.index ⟨16 * ((i 0).val / 512) + 15, ht⟩ (0 : Fin 2) * 512 + 512
    rw [e0]; show (16 * ((i 0).val / 512) + 15) / 16 * 512 ≤ (i 0).val ∧ (i 0).val < (16 * ((i 0).val / 512) + 15) / 16 * 512 + 512
    omega
  | ⟨1, _⟩ =>
    show win0_6.index ⟨16 * ((i 0).val / 512) + 15, ht⟩ (1 : Fin 2) * 1 ≤ (i 1).val
      ∧ (i 1).val < win0_6.index ⟨16 * ((i 0).val / 512) + 15, ht⟩ (1 : Fin 2) * 1 + 1
    rw [e1]; omega

theorem coverDenom (i : S4096x1.Idx) :
    ∃ t : Fin cfg0.N, (cfg0.win 7).flush t = true ∧ i ∈ ((cfg0.win 7).blk t).view.set := by
  have hN : cfg0.N = 128 := N_0
  have hi0 : (i 0).val < 4096 := (i 0).isLt
  have hi1 : (i 1).val < 1 := (i 1).isLt
  have ht : 16 * ((i 0).val / 512) + 15 < cfg0.N := by omega
  refine ⟨⟨16 * ((i 0).val / 512) + 15, ht⟩, (flush0_7 _).mpr (by show (16 * ((i 0).val / 512) + 15) % 16 = 15; omega), ?_⟩
  show i ∈ ((View.whole main_v11_1).slice (win0_7.rect ⟨16 * ((i 0).val / 512) + 15, ht⟩)).set
  rw [View.set_slice_whole, Rect.mem_set_unit]
  obtain ⟨-, -, e0, e1⟩ := out_idx ⟨16 * ((i 0).val / 512) + 15, ht⟩
  intro a
  match a with
  | ⟨0, _⟩ =>
    show win0_7.index ⟨16 * ((i 0).val / 512) + 15, ht⟩ (0 : Fin 2) * 512 ≤ (i 0).val
      ∧ (i 0).val < win0_7.index ⟨16 * ((i 0).val / 512) + 15, ht⟩ (0 : Fin 2) * 512 + 512
    rw [e0]; show (16 * ((i 0).val / 512) + 15) / 16 * 512 ≤ (i 0).val ∧ (i 0).val < (16 * ((i 0).val / 512) + 15) / 16 * 512 + 512
    omega
  | ⟨1, _⟩ =>
    show win0_7.index ⟨16 * ((i 0).val / 512) + 15, ht⟩ (1 : Fin 2) * 1 ≤ (i 1).val
      ∧ (i 1).val < win0_7.index ⟨16 * ((i 0).val / 512) + 15, ht⟩ (1 : Fin 2) * 1 + 1
    rw [e1]; omega

/-- The two result columns after the run. -/
theorem finalNumer : (dats m 0 c).arrAt 6 cfg0.N = numerArr m c :=
  (dats m 0 c).arrAt_eq_of_cover 6 (numerArr m c) (flushedNumer m c) coverNumer

theorem finalDenom : (dats m 0 c).arrAt 7 cfg0.N = denomArr m c :=
  (dats m 0 c).arrAt_eq_of_cover 7 (denomArr m c) (flushedDenom m c) coverDenom

end KdeLoss.Kernel

end
-- ==== Proof.KernelTail.lean ====
/-
  The kernel program's run, read: its result is the mean of the rows' losses in the kernel's spelling.

  After the launch the program divides each query's labelled weight by its total weight (floored at `1e-10`), floors
  the quotient at `1e-10`, takes minus the logarithm, keeps the rows whose label is not `-100`, and divides their sum
  by their number (at least one). The two weight columns are the arrays the launch leaves; every other array the
  tail reads is as the program found it.
-/
import proofs.«428639_j38646115730022_2_alg».proof.Proof.KernelArrays

noncomputable section

open Idealize.ShloMosaic Idealize.ShloMosaic.TcCoe Idealize.SL.Sem Idealize.ShloMosaic.ValueIdx

namespace KdeLoss.Kernel

open Cert.KernelIdeal Cert.KernelIdeal.Gen KdeLoss

variable {α : Type}

/-- A column `[a, 1]` read as a vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- "The label is not `-100`", as a one-bit word read as a number. -/
theorem validWord (a : BitVec 32) :
    ((((IntOp.cmpi .ne a 4294967196#32)).toNat : ℝ) : EReal) = if a = 4294967196#32 then 0 else 1 := by
  by_cases h : a = 4294967196#32
  · subst h; simp [IntOp.cmpi]
  · rw [if_neg h]
    have : (a != 4294967196#32) = true := by simpa using h
    simp [IntOp.cmpi, this]

/-- One row of the tail: from the two weight columns and the labels to the row's loss. -/
theorem tail_row (num den : FVec Ideal S4096x1 .f32) (tgt : IVec S4096 32) (h : S4096x1.ShapeCasts S4096)
    (hb : S_.BroadcastsInDim S4096 (![] : Fin 0 → Fin S4096.rank)) (i : Fin 4096) :
    (mulf (Host.negf (Host.log (maximumf (Host.divf (shapeCast S4096 num h)
          (maximumf (shapeCast S4096 den h) (broadcastInDim S4096 ![] hb (constant S_ .f32 0x2EDBE6FF#32))))
          (broadcastInDim S4096 ![] hb (constant S_ .f32 0x2EDBE6FF#32)))))
        (uitofp .f32 (cmpi .ne tgt (broadcastInDim S4096 ![] hb (constantI S_ 32 4294967196#32)))) : FVec Ideal S4096 .f32) (ix1 i)
      = (-(Ideal.log (max (Ideal.div (num (ix2 i (0 : Fin 1))) (max (den (ix2 i (0 : Fin 1))) eps32)) eps32)))
          * (if tgt (ix1 i) = 4294967196#32 then 0 else 1) := by
  show (-(Ideal.log (max (Ideal.div (shapeCast S4096 num h (ix1 i))
        (max (shapeCast S4096 den h (ix1 i)) (Ideal.ofBits .f32 0x2EDBE6FF#32))) (Ideal.ofBits .f32 0x2EDBE6FF#32))))
      * ((((IntOp.cmpi .ne (tgt (ix1 i)) 4294967196#32)).toNat : ℝ) : EReal) = _
  rw [shapeCast_a1_a_apply, shapeCast_a1_a_apply, validWord]
  rfl

variable (m : (ℓ : Loc nD τ sig) → Buf (Elt Ideal) ℓ) (ρ : Dev nD → PrngReg) (c : Dev nD)

set_option maxHeartbeats 1600000 in
/-- What the host operations after the launch leave in the result buffer. -/
theorem tail_value :
    Pipeline.afterTail₀ cfgs (dats m) 0 (V0 m) [hostOps1] c main_v30
      = meanOver bcast_S_S4096 reducesTo_S4096_S_d0 h_S_ natLt_1_32
          (fun x => rowK (suppArr m c) (predArr m c) (stgtArr m c) (tgtArr m c) (x 0)) (tgtArr m c) := by
  unfold Pipeline.afterTail₀
  have e6 : Pipeline.withArrays (cfgs 0).spec c (V0 m c) (fun w => (dats m 0 c).arrAt w (cfgs 0).N) (Proc.devRef .tc main_v11_0)
      = numerArr m c :=
    (Pipeline.withArrays_arr spec0 launch0.win.arr_inj c _ _ 6).trans (finalNumer m c)
  have e7 : Pipeline.withArrays (cfgs 0).spec c (V0 m c) (fun w => (dats m 0 c).arrAt w (cfgs 0).N) (Proc.devRef .tc main_v11_1)
      = denomArr m c :=
    (Pipeline.withArrays_arr spec0 launch0.win.arr_inj c _ _ 7).trans (finalDenom m c)
  have e3 : Pipeline.withArrays (cfgs 0).spec c (V0 m c) (fun w => (dats m 0 c).arrAt w (cfgs 0).N) (Proc.devRef .tc main_arg3)
      = tgtArr m c :=
    (Pipeline.withArrays_of_ne spec0 c (V0 m c) _ main_arg3 (by decide)).trans (V_main_arg3 m c)
  generalize Pipeline.withArrays (cfgs 0).spec c (V0 m c) (fun w => (dats m 0 c).arrAt w (cfgs 0).N) = W at e6 e7 e3 ⊢
  show StableHlo.after hostOps1 W (Proc.devRef .tc main_v30) = _
  after_results
  rw [e6, e7, e3]
  unfold meanOver
  refine congrArg (fun z => Host.divf (Host.reduceAdd z (constant S_ .f32 0x00000000#32) reducesTo_S4096_S_d0 h_S_) _) ?_
  funext x
  obtain ⟨i, rfl⟩ : ∃ i : Fin 4096, x = ix1 i := ⟨x 0, eq_ix1 x⟩
  exact tail_row (numerArr m c) (denomArr m c) (tgtArr m c) shapeCasts_S4096x1_S4096 bcast_S_S4096 i

/-- THE RUN: every weakly fair execution of the program ends with the result buffer at the mean of the rows' losses
    and the four argument arrays unchanged. -/
theorem run : θ_run defs (onTc (τ := τ) (main (F := Ideal))) ⟨m, fun _ => 0, ρ⟩ fun r => ∀ c : Dev nD,
      r.2.mem ((c.tc : Thread nD τ).loc main_v30)
          = meanOver bcast_S_S4096 reducesTo_S4096_S_d0 h_S_ natLt_1_32
              (fun x => rowK (suppArr m c) (predArr m c) (stgtArr m c) (tgtArr m c) (x 0)) (tgtArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v30 (Pipeline.mem_restRefs_of main_v30 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end KdeLoss.Kernel

end
-- ==== Proof.LibTakeAlongAxis.lean ====
/-
  `jnp.take_along_axis(x, idx, axis=1)` of a rank-2 table `x : [N, C]` at one position per row,
  read at an index.

  It prints as a `stablehlo.gather` whose start indices are `idx` as `[N, 1, 1]`, with the table's
  axis 0 a batching axis (paired with the indices' axis 0), axis 1 collapsed and start-indexed, slice
  sizes `[1, 1]`, the index vector on axis 2 and the result `[N, 1]`. Result element `(n, 0)` is row
  `n` of the table at the column `idx[n, 0, 0]`, read as a signed integer and clamped into
  `[0, C - 1]` as StableHLO clamps every start index.
-/
import Idealize.ShloMosaic.PureOps.ShapeOps
import Idealize.ShloMosaic.Lib.ValueIdx

noncomputable section

namespace Idealize.ShloMosaic.TakeAlongAxis

open Idealize.ShloMosaic Idealize.ShloMosaic.ValueIdx

variable {α : Type}

/-- Index `(n, 0, 0)` of the start indices. -/
abbrev ixN00 {N : Nat} (n : Fin N) : (⟨3, ![N, 1, 1]⟩ : Shape).Idx :=
  fun a => match a with | ⟨0, _⟩ => n | ⟨1, _⟩ => (0 : Fin 1) | ⟨2, _⟩ => (0 : Fin 1)

/-- THE READ: with the printed dimension numbers (each hypothesis is `rfl` on a program's record), result
    `(n, 0)` is the table at row `n` and the clamped column `idx[n, 0, 0]`. -/
theorem gather_apply {N C w : Nat} (hC : 0 < C)
    (d : GatherDims (⟨2, ![N, C]⟩ : Shape) (⟨3, ![N, 1, 1]⟩ : Shape) (⟨2, ![N, 1]⟩ : Shape))
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![N, C]⟩ : Shape).Idx → α) (idx : IVec (⟨3, ![N, 1, 1]⟩ : Shape) w) (n : Fin N) :
    Host.gather d x idx (ix2 n (0 : Fin 1))
      = x (ix2 n (⟨min (idx (ixN00 n)).toInt.toNat (C - 1), by omega⟩ : Fin C)) := by
  have hsl : d.sliceSizes 1 = 1 := d.slice_collapsed 1 (by rw [hcoll]; exact List.mem_singleton.mpr rfl)
  obtain ⟨od, cd, ob, sb, sm, iv, ss, wf⟩ := d
  simp only at hoff hcoll hob hsb hsim hivd hsl
  subst hoff hcoll hob hsb hsim hivd
  unfold Host.gather
  refine congrArg x (funext fun a => Fin.ext ?_)
  match a with
  | ⟨0, _⟩ =>
    show GatherDims.start _ _ idx _ + GatherDims.batchCoord _ _ _ + GatherDims.offCoord _ _ _ = n.val
    simp [GatherDims.start, GatherDims.batchCoord, GatherDims.offCoord, GatherDims.siCoord, GatherDims.sKept, GatherDims.siKept, GatherDims.batchDims, Shape.kept]
    rfl
  | ⟨1, _⟩ =>
    show GatherDims.start _ _ idx _ + GatherDims.batchCoord _ _ _ + GatherDims.offCoord _ _ _ = min (idx (ixN00 n)).toInt.toNat (C - 1)
    simp [GatherDims.start, GatherDims.batchCoord, GatherDims.offCoord, GatherDims.siCoord, GatherDims.sKept, GatherDims.siKept, GatherDims.batchDims, Shape.kept, hsl]
    congr 3
    refine congrArg idx ?_
    funext b
    apply Fin.ext
    fin_cases b
    · simp [GatherDims.siIdx, GatherDims.siCoord, GatherDims.siKept, GatherDims.batchDims, Shape.kept]
      rfl
    · simp [GatherDims.siIdx, GatherDims.siCoord, GatherDims.siKept, GatherDims.batchDims, Shape.kept]
    · simp [GatherDims.siIdx]

end Idealize.ShloMosaic.TakeAlongAxis

end
-- ==== Proof.LibAndAll.lean ====
import Idealize.ShloMosaic.PureOps.Reduce

/-!
# A conjunction over an axis that holds everywhere

`Lib/ReduceAll.lean` of the library reads a `stablehlo.reduce` with body `and` from its result to its operand: if
the result is true at `j`, every operand element that drops to `j` is true.  This file has the converse for a
reduction that starts from `true`: if EVERY element of the operand is true, the result is true at every index,
whatever the axes reduced.
-/

namespace Idealize.ShloMosaic

namespace IntOp

/-- A left fold of `and` from `true` over elements that are all `true` is `true`. -/
theorem foldl_andi_of_all {ι : Type} (f : ι → BitVec 1) :
    ∀ l : List ι, (∀ n ∈ l, f n = 1#1) → l.foldl (fun r n => andi r (f n)) 1#1 = 1#1
  | [], _ => rfl
  | a :: l, h => by
    have e : andi 1#1 (f a) = 1#1 := by rw [h a (List.mem_cons_self ..)]; decide
    rw [List.foldl_cons, e]
    exact foldl_andi_of_all f l fun n hn => h n (List.mem_cons_of_mem _ hn)

end IntOp

namespace Host

variable {s t u : Shape} {axes : List (Fin s.rank)}

/-- A `stablehlo.reduce` with body `and`, started from `true`, of an operand that is `true` everywhere, is `true`
    at every index of the result. -/
theorem reduce_andi_of_all (x : s.Idx → BitVec 1) (init : u.Idx → BitVec 1) (h : s.ReducesTo axes t) (hu : 0 < u.numel)
    (hinit : init (Shape.Idx.first hu) = 1#1) (hx : ∀ i, x i = 1#1) (j : t.Idx) :
    Host.reduce IntOp.andi x init h hu j = 1#1 := by
  rw [Host.reduce_eq_foldl, hinit]
  exact IntOp.foldl_andi_of_all x _ fun n _ => hx n

end Host

end Idealize.ShloMosaic
-- ==== Proof.RefValue.lean ====
/-
  The reference program's result is the mean of the rows' losses in the reference's spelling.

  The program is read one operation at a time. The float side: the squared norms, the doubled query's dot product, the
  distance floored at zero, the radial weight, its row total floored at `1e-10`, the normalised weights and their
  product with the one-hot labels. The integer side: an ignored row reads class `0`, so every row's class is below
  `1000`; the negative-index wrap and the bounds mask of the column read are then the identity, the clamp of the
  start index is the identity, and the column read is the sum of the normalised weights of the support rows that
  carry the row's class. The tail floors that probability, takes minus its logarithm and counts it only for a row
  whose label is not the ignore label. The last step is the mean the specification names.
-/
import proofs.«428639_j38646115730022_2_alg».proof.Proof.Gen.ReferenceIdeal.Run
import proofs.«428639_j38646115730022_2_alg».proof.Proof.Gen.ReferenceIdeal.Read
import proofs.«428639_j38646115730022_2_alg».proof.Proof.KdeSpec
import proofs.«428639_j38646115730022_2_alg».proof.Proof.LibTakeAlongAxis
import proofs.«428639_j38646115730022_2_alg».proof.Proof.LibAndAll

noncomputable section

namespace KdeLoss.Reference

open Idealize.ShloMosaic Idealize.ShloMosaic.ValueIdx Cert.ReferenceIdeal Cert.ReferenceIdeal.Gen Cert.ReferenceIdeal.Read KdeLoss

/-! ## Words: comparisons, a one-bit word read as a number, and a class below `1000` -/

theorem cmpi_ne (a b : BitVec 32) : IntOp.cmpi .ne a b = if a = b then 0#1 else 1#1 := by
  by_cases h : a = b
  · subst h; simp [IntOp.cmpi]
  · have hb : (a != b) = true := bne_iff_ne.mpr h
    simp [IntOp.cmpi, h, hb]

theorem cmpi_eq (a b : BitVec 32) : IntOp.cmpi .eq a b = if a = b then 1#1 else 0#1 := by
  by_cases h : a = b
  · subst h; simp [IntOp.cmpi]
  · have hb : (a == b) = false := beq_eq_false_iff_ne.mpr h
    simp [IntOp.cmpi, h, hb]

/-- A one-bit word read unsigned on the extended reals is `1` or `0`. -/
theorem uitofp_bit (b : BitVec 1) : FloatOps.uitofp (F := Ideal) .f32 b = if b = 1#1 then (1 : EReal) else 0 := by
  rcases BitVec.eq_zero_or_eq_one b with h | h <;> subst h <;> simp [FloatOps.uitofp]

theorem uitofp_cmpi_eq (a b : BitVec 32) :
    FloatOps.uitofp (F := Ideal) .f32 (IntOp.cmpi .eq a b) = if a = b then (1 : EReal) else 0 := by
  rw [uitofp_bit, cmpi_eq]; by_cases h : a = b <;> simp [h]

theorem uitofp_cmpi_ne (a b : BitVec 32) :
    FloatOps.uitofp (F := Ideal) .f32 (IntOp.cmpi .ne a b) = if a = b then (0 : EReal) else 1 := by
  rw [uitofp_bit, cmpi_ne]; by_cases h : a = b <;> simp [h]

theorem select_cmpi_ne {α : Type} (a b : BitVec 32) (u v : α) :
    Scalar.select (IntOp.cmpi .ne a b) u v = if a = b then v else u := by
  rw [cmpi_ne]; by_cases h : a = b <;> simp [h, Scalar.select]

/-- A word below `1000` read signed is itself. -/
theorem toInt_small (s : BitVec 32) (h : s.toNat < 1000) : s.toInt = (s.toNat : Int) := by
  rw [BitVec.toInt_eq_toNat_cond]; rw [if_pos (by omega)]

theorem slt_zero (s : BitVec 32) (h : s.toNat < 1000) : IntOp.cmpi .slt s 0#32 = 0#1 := by
  simp only [IntOp.cmpi, BitVec.slt, toInt_small s h]
  have : ¬ ((s.toNat : Int) < 0) := by omega
  simp [this]

theorem sge_zero (s : BitVec 32) (h : s.toNat < 1000) : IntOp.cmpi .sge s 0#32 = 1#1 := by
  simp only [IntOp.cmpi, BitVec.sle, toInt_small s h]
  simp

theorem sle_999 (s : BitVec 32) (h : s.toNat < 1000) : IntOp.cmpi .sle s 999#32 = 1#1 := by
  simp only [IntOp.cmpi, BitVec.sle, toInt_small s h]
  have : (999#32 : BitVec 32).toInt = 999 := by decide
  rw [this]
  have : ((s.toNat : Int) ≤ 999) := by omega
  simp [this]

/-- The clamp of a start index into `[0, 999]` keeps a word below `1000`. -/
theorem clamp_small (s : BitVec 32) (h : s.toNat < 1000) : min s.toInt.toNat (1000 - 1) = s.toNat := by
  rw [toInt_small s h]; simp; omega

theorem ofNat_toNat32 (s : BitVec 32) : BitVec.ofNat 32 s.toNat = s :=
  BitVec.eq_of_toNat_eq (by rw [BitVec.toNat_ofNat]; exact Nat.mod_eq_of_lt s.isLt)

/-! ## The float side, each value at an index -/

section floatSide

variable (x0 : (⟨S16384x256, .f32⟩ : BufTy).Contents (Elt Ideal)) (x1 : (⟨S4096x256, .f32⟩ : BufTy).Contents (Elt Ideal))
  (x2 : (⟨S16384, .i32⟩ : BufTy).Contents (Elt Ideal))

/-- The query rows' squared norms. -/
theorem v1_at (K : S4096.Idx) : val_main_v1 (F := Ideal) x1 K = predSq x1 (K 0) := by
  rw [val_main_v1_apply, val_main_cst_apply]
  simp only [val_main_v0_apply, Ideal.ofBits_def, Ideal.mulf_def]
  have e : ∀ k : Fin 256, idx_main_v1 K k = ix2 (K 0) k := fun k =>
    funext fun a => Fin.ext (by match a with | ⟨0, _⟩ => rfl | ⟨1, _⟩ => rfl)
  simp only [e]
  rfl

/-- The support rows' squared norms. -/
theorem v4_at (K : S16384.Idx) : val_main_v4 (F := Ideal) x0 K = suppSq x0 (K 0) := by
  rw [val_main_v4_apply, val_main_cst_0_apply]
  simp only [val_main_v3_apply, Ideal.ofBits_def, Ideal.mulf_def]
  have e : ∀ k : Fin 256, idx_main_v4 K k = ix2 (K 0) k := fun k =>
    funext fun a => Fin.ext (by match a with | ⟨0, _⟩ => rfl | ⟨1, _⟩ => rfl)
  simp only [e]
  rfl

/-- The doubled query against the transposed support: the dot product of the doubled query row and the support row. -/
theorem v12_at (I : S4096x16384.Idx) :
    val_main_v12 (F := Ideal) x0 x1 I = ∑ k : Fin 256, (two32 * x1 (ix2 (I 0) k)) * x0 (ix2 (I 1) k) := by
  rw [val_main_v12_apply]
  refine Finset.sum_congr rfl fun k _ => ?_
  rw [val_main_v10_apply, val_main_v9_apply, val_main_cst_1_apply, val_main_v11_apply]
  have el : lidx_main_v12 I k = ix2 (I 0) k :=
    funext fun a => Fin.ext (by match a with | ⟨0, _⟩ => rfl | ⟨1, _⟩ => rfl)
  have er : idx_main_v11 (ridx_main_v12 I k) = ix2 (I 1) k :=
    funext fun a => Fin.ext (by match a with | ⟨0, _⟩ => rfl | ⟨1, _⟩ => rfl)
  rw [el, er]
  rfl

/-- The radial weight of a query row and a support row. -/
theorem v18_at (I : S4096x16384.Idx) : val_main_v18 (F := Ideal) x0 x1 I = rbfR x0 x1 (I 0) (I 1) := by
  rw [val_main_v18_apply, val_main_v17_apply, val_main_v15_apply, val_main_v13_apply, val_main_v8_apply,
    val_main_v6_apply, val_main_v2_apply, v1_at, val_main_v7_apply, val_main_v5_apply, v4_at, v12_at,
    val_main_v14_apply, val_main_cst_2_apply, val_main_v16_apply, val_main_cst_3_apply]
  simp only [Ideal.hostUnary_exp_def, Ideal.hostDivf_def, Ideal.maximumf_def, Ideal.subf_def, Ideal.addf_def,
    Ideal.ofBits_def]
  rfl

/-- A query row's total weight. -/
theorem v19_at (K : S4096.Idx) : val_main_v19 (F := Ideal) x0 x1 K = denomR x0 x1 (K 0) := by
  rw [val_main_v19_apply, val_main_cst_4_apply]
  simp only [v18_at, Ideal.ofBits_def]
  rfl

/-- A weight over its row's total, the total floored at `1e-10`. -/
theorem v23_at (I : S4096x16384.Idx) :
    val_main_v23 (F := Ideal) x0 x1 I = Ideal.div (rbfR x0 x1 (I 0) (I 1)) (max eps32 (denomR x0 x1 (I 0))) := by
  rw [val_main_v23_apply, v18_at, val_main_v22_apply, val_main_v21_apply, val_main_call0_v1_apply,
    val_main_call0_v0_apply, val_main_cst_5_apply, val_main_v20_apply, v19_at]
  simp only [Ideal.hostDivf_def, Ideal.maximumf_def, Ideal.ofBits_def]
  rfl

/-- The one-hot labels: `1` where the support row's label is the column's class. -/
theorem v24_at (L : S16384x1000.Idx) :
    val_main_v24 (F := Ideal) x2 L = if x2 (ix1 (L 0)) = BitVec.ofNat 32 (L 1).val then (1 : EReal) else 0 := by
  rw [val_main_v24_apply, val_main_call1_v4_apply, val_main_call1_v2_apply, val_main_call1_v0_apply,
    val_main_call1_v3_apply, val_main_call1_v1_apply, uitofp_cmpi_eq]
  have e : idx_main_call1_v0 (idx_main_call1_v2 L) = ix1 (L 0) :=
    funext fun a => Fin.ext (by match a with | ⟨0, _⟩ => rfl)
  rw [e]
  rfl

/-- A query row's weight on a class: the normalised weights of the support rows that carry it. -/
theorem v25_at (I : S4096x1000.Idx) :
    val_main_v25 (F := Ideal) x0 x1 x2 I
      = ∑ j : Fin 16384, Ideal.div (rbfR x0 x1 (I 0) j) (max eps32 (denomR x0 x1 (I 0)))
          * (if x2 (ix1 j) = BitVec.ofNat 32 (I 1).val then (1 : EReal) else 0) := by
  rw [val_main_v25_apply]
  simp only [v23_at, v24_at]
  rfl

end floatSide

/-! ## The integer side: the class a row reads, the wrap, the bounds mask -/

section intSide

variable (x3 : (⟨S4096, .i32⟩ : BufTy).Contents (Elt Ideal))

/-- The `where`: an ignored row reads class `0`, any other its label. -/
theorem v28_at (i : Fin 4096) : val_main_v28 (F := Ideal) x3 (ix1 i) = cls x3 i := by
  rw [val_main_v28_apply, val_main_v27_apply, val_main_v26_apply, val_main_c_apply, val_main_call2_v1_apply,
    val_main_call2_v0_apply, val_main_c_6_apply, select_cmpi_ne]
  rfl

variable (hlab : ∀ x, x3 x = 4294967196#32 ∨ (x3 x).toNat < 1000)

include hlab in
/-- Every row's class is below `1000`. -/
theorem cls_lt (i : Fin 4096) : (cls x3 i).toNat < 1000 := by
  unfold cls
  by_cases h : x3 (ix1 i) = 4294967196#32
  · rw [if_pos h]; decide
  · rw [if_neg h]
    rcases hlab (ix1 i) with h' | h'
    · exact absurd h' h
    · exact h'

include hlab in
/-- The negative-index wrap keeps a class below `1000`. -/
theorem call3_v4_at (i : Fin 4096) : val_main_call3_v4 (F := Ideal) x3 (ix2 i (0 : Fin 1)) = cls x3 i := by
  have e : idx_main_v29 (ix2 i (0 : Fin 1)) = ix1 i := funext fun a => Fin.ext (by match a with | ⟨0, _⟩ => rfl)
  have h29 : val_main_v29 (F := Ideal) x3 (ix2 i (0 : Fin 1)) = cls x3 i := by rw [val_main_v29_apply, e, v28_at]
  rw [val_main_call3_v4_apply, val_main_call3_v1_apply, val_main_call3_v0_apply, val_main_call3_c_apply, h29,
    slt_zero _ (cls_lt x3 hlab i), select_zero]

include hlab in
/-- The start indices of the column read. -/
theorem call3_v5_at (i : Fin 4096) (b c : Fin 1) : val_main_call3_v5 (F := Ideal) x3 (ix3 i b c) = cls x3 i := by
  have e : idx_main_call3_v5 (ix3 i b c) = ix2 i (0 : Fin 1) := funext fun a => Fin.ext (by
    match a with
    | ⟨0, _⟩ =>
      have h1 : b.val < 1 := b.isLt
      have h2 : c.val < 1 := c.isLt
      show ((i.val * 1 + b.val) * 1 + c.val) / 1 = i.val
      omega
    | ⟨1, _⟩ => rfl)
  rw [val_main_call3_v5_apply, e, call3_v4_at x3 hlab]

include hlab in
/-- The bounds mask holds on every row. -/
theorem call3_v12_at (J : S4096x1.Idx) : val_main_call3_v12 (F := Ideal) x3 J = 1#1 := by
  unfold val_main_call3_v12
  refine Host.reduce_andi_of_all _ _ _ _ rfl (fun T => ?_) J
  obtain ⟨i, b, c, rfl⟩ : ∃ (i : Fin 4096) (b c : Fin 1), T = ix3 i b c := ⟨T 0, T 1, T 2, eq_ix3 T⟩
  rw [val_main_call3_v11_apply, val_main_call3_v7_apply, val_main_call3_v10_apply, call3_v5_at x3 hlab,
    val_main_call3_v6_apply, val_main_call3_c_2_apply, val_main_call3_v9_apply, val_main_call3_v8_apply,
    val_main_call3_c_1_apply, sge_zero _ (cls_lt x3 hlab i), sle_999 _ (cls_lt x3 hlab i)]
  decide

end intSide

/-! ## The column read and the tail -/

section tail

variable (x0 : (⟨S16384x256, .f32⟩ : BufTy).Contents (Elt Ideal)) (x1 : (⟨S4096x256, .f32⟩ : BufTy).Contents (Elt Ideal))
  (x2 : (⟨S16384, .i32⟩ : BufTy).Contents (Elt Ideal)) (x3 : (⟨S4096, .i32⟩ : BufTy).Contents (Elt Ideal))
  (hlab : ∀ x, x3 x = 4294967196#32 ∨ (x3 x).toNat < 1000)

include hlab in
/-- The column read: a row's weight on its own class. -/
theorem call3_v13_at (n : Fin 4096) :
    val_main_call3_v13 (F := Ideal) x0 x1 x2 x3 (ix2 n (0 : Fin 1)) = probR x0 x1 x2 x3 n := by
  unfold val_main_call3_v13
  rw [TakeAlongAxis.gather_apply (N := 4096) (C := 1000) (by decide)
    gather_S4096x1000_S4096x1x1_S4096x1_n_1_0_0_1_2_11 rfl rfl rfl rfl rfl rfl, v25_at]
  have e3 : TakeAlongAxis.ixN00 n = ix3 n (0 : Fin 1) (0 : Fin 1) :=
    funext fun a => Fin.ext (by match a with | ⟨0, _⟩ => rfl | ⟨1, _⟩ => rfl | ⟨2, _⟩ => rfl)
  have hcol : BitVec.ofNat 32 (min (val_main_call3_v5 (F := Ideal) x3 (TakeAlongAxis.ixN00 n)).toInt.toNat (1000 - 1))
      = cls x3 n := by
    rw [e3, call3_v5_at x3 hlab, clamp_small _ (cls_lt x3 hlab _)]
    exact ofNat_toNat32 _
  unfold probR
  refine Finset.sum_congr rfl fun j _ => ?_
  show Ideal.div (rbfR x0 x1 n j) (max eps32 (denomR x0 x1 n))
      * (if x2 (ix1 j) = BitVec.ofNat 32 (min (val_main_call3_v5 (F := Ideal) x3 (TakeAlongAxis.ixN00 n)).toInt.toNat (1000 - 1))
          then (1 : EReal) else 0) = _
  rw [hcol]

include hlab in
/-- The probability a row gives its own class, as the program's rank-1 value. -/
theorem v31_at (i : Fin 4096) : val_main_v31 (F := Ideal) x0 x1 x2 x3 (ix1 i) = probR x0 x1 x2 x3 i := by
  have e : idx_main_v31 (ix1 i) = ix2 i (0 : Fin 1) :=
    funext fun a => Fin.ext (by match a with | ⟨0, _⟩ => exact Nat.div_one _ | ⟨1, _⟩ => rfl)
  rw [val_main_v31_apply, e, val_main_v30_apply, call3_v12_at x3 hlab, select_one, call3_v13_at x0 x1 x2 x3 hlab]

include hlab in
/-- One row's loss. -/
theorem v36_at (i : Fin 4096) : val_main_v36 (F := Ideal) x0 x1 x2 x3 (ix1 i) = rowR x0 x1 x2 x3 i := by
  rw [val_main_v36_apply, val_main_v34_apply, val_main_v33_apply, val_main_v32_apply, val_main_call4_v1_apply,
    val_main_call4_v0_apply, val_main_cst_7_apply, v31_at x0 x1 x2 x3 hlab, val_main_v35_apply, val_main_v27_apply,
    val_main_v26_apply, val_main_c_apply, uitofp_cmpi_ne]
  simp only [Ideal.mulf_def, Ideal.hostNegf_def, Ideal.negf_def, Ideal.hostUnary_log_def, Ideal.maximumf_def,
    Ideal.ofBits_def]
  rfl

end tail

/-- The reference program's result is the mean of the rows' losses. -/
theorem val_eq (x0 : (⟨S16384x256, .f32⟩ : BufTy).Contents (Elt Ideal)) (x1 : (⟨S4096x256, .f32⟩ : BufTy).Contents (Elt Ideal))
    (x2 : (⟨S16384, .i32⟩ : BufTy).Contents (Elt Ideal)) (x3 : (⟨S4096, .i32⟩ : BufTy).Contents (Elt Ideal))
    (hlab : ∀ x, x3 x = 4294967196#32 ∨ (x3 x).toNat < 1000) :
    val_main_v42 (F := Ideal) x0 x1 x2 x3
      = meanOver bcast_S_S4096 reducesTo_S4096_S_d0 h_S_ natLt_1_32 (fun x => rowR x0 x1 x2 x3 (x 0)) x3 := by
  have h36 : val_main_v36 (F := Ideal) x0 x1 x2 x3 = fun x => rowR x0 x1 x2 x3 (x 0) := by
    funext K
    obtain ⟨i, rfl⟩ : ∃ i : Fin 4096, K = ix1 i := ⟨K 0, eq_ix1 K⟩
    exact v36_at x0 x1 x2 x3 hlab i
  unfold val_main_v42 val_main_v37 val_main_v41 val_main_v40 val_main_v39 val_main_v38 val_main_v27 val_main_v26
    val_main_c val_main_c_9 val_main_c_10 val_main_cst_8 meanOver
  rw [h36]

end KdeLoss.Reference

end
-- ==== Proof.PreDecode.lean ====
/-
  What the precondition says of the arrays: every entry of the two embedding arrays is a real number, and every
  query label is the ignore label or a class in [0, 1000).
-/
import proofs.«428639_j38646115730022_2_alg».proof.Pre_finite_inputs
import Idealize.ShloMosaic.PureOps.Ideal.Laws
import Idealize.ShloMosaic.Lib.ReduceAll
import Idealize.ShloMosaic.Lib.StableHlo.Predicate
import Idealize.ShloMosaic.Lib.ValueIdx

noncomputable section

namespace KdeLoss

open Idealize.ShloMosaic Idealize.ShloMosaic.ValueIdx Cert.Pre_finite_inputs

/-- The rank-0 shape has one index. -/
instance : Subsingleton S_.Idx := ⟨fun a b => funext fun d => d.elim0⟩

/-- The f32 pattern 0x7F800000 denotes +∞. -/
theorem ofBits_inf_f32 : Ideal.ofBits .f32 0x7F800000#32 = ⊤ := by
  simp [Ideal.ofBits, Ideal.ieee]

/-- An extended real whose absolute value max x (-x) is below +∞ is neither infinity. -/
theorem finite_of_abs_lt_top (x : EReal)
    (h : Ideal.cmp .olt (max x (-x)) (Ideal.ofBits .f32 0x7F800000#32) = 1#1) : x ≠ ⊤ ∧ x ≠ ⊥ := by
  rw [ofBits_inf_f32] at h
  induction x using EReal.rec with
  | bot => exact absurd h (by simp [Ideal.cmp])
  | coe r => exact ⟨EReal.coe_ne_top r, EReal.coe_ne_bot r⟩
  | top => exact absurd h (by simp [Ideal.cmp])

/-- A 32-bit word that is -100, or lies in [0, 1000) read signed, is -100 or is below 1000 read unsigned. -/
theorem label_of_word (w : BitVec 32)
    (h : IntOp.ori (IntOp.cmpi .eq w 4294967196#32)
      (IntOp.andi (IntOp.cmpi .sge w 0#32) (IntOp.cmpi .slt w 1000#32)) = 1#1) :
    w = 4294967196#32 ∨ w.toNat < 1000 := by
  rcases IntOp.ori_eq_one.1 h with h | h
  · exact Or.inl (IntOp.cmpi_eq.1 h)
  · obtain ⟨h0, h1⟩ := IntOp.andi_eq_one.1 h
    have h0' := IntOp.cmpi_sge.1 h0
    have h1' := IntOp.cmpi_slt.1 h1
    have z0 : (0#32 : BitVec 32).toInt = 0 := by decide
    have z1 : (1000#32 : BitVec 32).toInt = 1000 := by decide
    rw [z0] at h0'
    rw [z1] at h1'
    rw [BitVec.toInt_eq_toNat_cond] at h0' h1'
    right
    split at h0' <;> omega

theorem pre_decode [Cert.Pre_finite_inputs.Facts] (a0 : FVec Ideal S16384x256 .f32) (a1 : FVec Ideal S4096x256 .f32)
    (a2 : IVec S16384 32) (a3 : IVec S4096 32)
    (h : Cert.Pre_finite_inputs.fn (F := Ideal) a0 a1 a2 a3 = fun _ => 1#1) :
    (∀ x, a0 x ≠ ⊤ ∧ a0 x ≠ ⊥) ∧ (∀ x, a1 x ≠ ⊤ ∧ a1 x ≠ ⊥)
      ∧ (∀ x, a3 x = 4294967196#32 ∨ (a3 x).toNat < 1000) := by
  have e := congrFun h ix0
  dsimp only [fn, fn_part1] at e
  obtain ⟨e12, e3⟩ := IntOp.andi_eq_one.1 e
  obtain ⟨e1, e2⟩ := IntOp.andi_eq_one.1 e12
  refine ⟨fun x => ?_, fun x => ?_, fun x => ?_⟩
  · have hx := Host.reduce_andi_all _ _ _ _ ix0 e1 x
    exact finite_of_abs_lt_top (a0 x) hx
  · have hx := Host.reduce_andi_all _ _ _ _ ix0 e2 x
    exact finite_of_abs_lt_top (a1 x) hx
  · have hx := Host.reduce_andi_all _ _ _ _ ix0 e3 x
    exact label_of_word (a3 x) hx

end KdeLoss

end
-- ==== Proof.lean ====
/-
  The certificate: the kernel-density log-loss kernel against its reference, over the extended reals.

  Both programs compute, for 4096 query rows against 16384 support rows, the mean over the counted queries of minus
  the logarithm of the query's class probability: the weight `exp (-d² / 256)` of the support rows carrying the query's
  label over the weight of all support rows. The kernel accumulates the two weights block by block over a grid and
  divides once; the reference normalises every weight and multiplies by a one-hot matrix of the support labels, then
  picks the query's class. Over the reals the two agree row by row (the quotient of a sum is the sum of the
  quotients; doubling before or after a dot product is the same; multiplying by `-1/256` is dividing by `-256`), for
  finite embeddings and for query labels that are the ignore label or a class below 1000 — the reference's one-hot
  product is only read inside its 1000 columns.

  The three frames are the generated ones (the reference's is its run with the result dropped); the ideal pass
  rewrote nothing, so `preserves` is trivial.
-/
import proofs.«428639_j38646115730022_2_alg».proof.Defs
import proofs.«428639_j38646115730022_2_alg».proof.Proof.Gen.Kernel
import proofs.«428639_j38646115730022_2_alg».proof.Proof.Gen.Kernel.Frame
import proofs.«428639_j38646115730022_2_alg».proof.Proof.Gen.KernelIdeal
import proofs.«428639_j38646115730022_2_alg».proof.Proof.Gen.KernelIdeal.Frame
import proofs.«428639_j38646115730022_2_alg».proof.Proof.Gen.ReferenceIdeal
import proofs.«428639_j38646115730022_2_alg».proof.Proof.Gen.ReferenceIdeal.Run
import proofs.«428639_j38646115730022_2_alg».proof.Proof.Gen.ReferenceIdeal.Read
import proofs.«428639_j38646115730022_2_alg».proof.Proof.Gen.Pre_finite_inputs
import proofs.«428639_j38646115730022_2_alg».proof.Proof.KernelTail
import proofs.«428639_j38646115730022_2_alg».proof.Proof.RefValue
import proofs.«428639_j38646115730022_2_alg».proof.Proof.KdeRowsAgree
import proofs.«428639_j38646115730022_2_alg».proof.Proof.PreDecode

noncomputable section

namespace Cert.Proof

open Idealize.ShloMosaic Idealize.ShloMosaic.TcCoe Idealize.SL.Sem KdeLoss

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the four arrays both programs end at the same mean: the kernel's run gives the mean of
    the rows' losses in its spelling, the reference's run in the other, and the two spellings agree on finite embeddings. -/
theorem algebraic : Cert.algebraic_KernelIdeal_ReferenceIdeal := by
  intro m ρ m' ρ' hpre hagree
  refine ⟨_, KdeLoss.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨hs, hp, hl⟩ := KdeLoss.pre_decode _ _ _ _ (hpre c)
  rw [Cert.ReferenceIdeal.Read.val_main_v42_eq, (hagree c).1, (hagree c).2.1, (hagree c).2.2.1, (hagree c).2.2.2,
    KdeLoss.Reference.val_eq _ _ _ _ hl]
  exact congrArg (fun z => meanOver _ _ _ _ z _) (funext fun x => (rowK_eq_rowR _ _ _ _ hs hp (x 0)).symm)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
